-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S2x200000 : Shape := ⟨2, ![2, 200000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  bcast_S_S2x200000 : S_.BroadcastsInDim S2x200000 (![] : Fin 0 → Fin S2x200000.rank)
  reducesTo_S2x200000_S_d0_1 : S2x200000.ReducesTo [0, 1] S_

variable [Facts]

def fn_part3 {F : FTy → Type} [FloatOps F] (main_arg2 : IVec S2x200000 32) (main_v51 : IVec S_ 1) : IVec S_ 1 :=
  let main_c_18 : IVec S_ 32 := constantI S_ 32 4294917296#32
  let main_v52 : IVec S2x200000 32 := broadcastInDim S2x200000 ![] bcast_S_S2x200000 main_c_18
  let main_v53 : IVec S2x200000 1 := cmpi .sge main_arg2 main_v52
  let main_c_19 : IVec S_ 32 := constantI S_ 32 50000#32
  let main_v54 : IVec S2x200000 32 := broadcastInDim S2x200000 ![] bcast_S_S2x200000 main_c_19
  let main_v55 : IVec S2x200000 1 := cmpi .slt main_arg2 main_v54
  let main_v56 : IVec S2x200000 1 := andi main_v53 main_v55
  let main_c_20 : IVec S_ 1 := constantI S_ 1 1#1
  let main_v57 : IVec S_ 1 := (fun x v => Host.reduce IntOp.andi x v reducesTo_S2x200000_S_d0_1 h_S_) main_v56 main_c_20
  let main_v58 : IVec S_ 1 := andi main_v51 main_v57
  main_v58

def fn_part2 {F : FTy → Type} [FloatOps F] (main_arg0 : IVec S50000 32) (main_arg1 : IVec S2x600000 32) (main_arg2 : IVec S2x200000 32) (main_v33 : IVec S_ 1) : IVec S_ 1 :=
  let main_c_12 : IVec S_ 32 := constantI S_ 32 4294917296#32
  let main_v34 : IVec S50000 32 := broadcastInDim S50000 ![] bcast_S_S50000 main_c_12
  let main_v35 : IVec S50000 1 := cmpi .sge main_arg0 main_v34
  let main_c_13 : IVec S_ 32 := constantI S_ 32 50000#32
  let main_v36 : IVec S50000 32 := broadcastInDim S50000 ![] bcast_S_S50000 main_c_13
  let main_v37 : IVec S50000 1 := cmpi .slt main_arg0 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  let main_v41 : IVec S1x600000 32 := (extractStridedSlice S1x600000 ![0, 0] · slices_S2x600000_S1x600000_0_0) main_arg1
  let main_v42 : IVec S600000 32 := shapeCast S600000 main_v41 shapeCasts_S1x600000_S600000
  let main_c_15 : IVec S_ 32 := constantI S_ 32 4294917296#32
  let main_v43 : IVec S600000 32 := broadcastInDim S600000 ![] bcast_S_S600000 main_c_15
  let main_v44 : IVec S600000 1 := cmpi .sge main_v42 main_v43
  let main_v45 : IVec S1x600000 32 := (extractStridedSlice S1x600000 ![0, 0] · slices_S2x600000_S1x600000_0_0) main_arg1
  let main_v46 : IVec S600000 32 := shapeCast S600000 main_v45 shapeCasts_S1x600000_S600000
  let main_c_16 : IVec S_ 32 := constantI S_ 32 50000#32
  let main_v47 : IVec S600000 32 := broadcastInDim S600000 ![] bcast_S_S600000 main_c_16
  let main_v48 : IVec S600000 1 := cmpi .slt main_v46 main_v47
  let main_v49 : IVec S600000 1 := andi main_v44 main_v48
  let main_c_17 : IVec S_ 1 := constantI S_ 1 1#1
  let main_v50 : IVec S_ 1 := (fun x v => Host.reduce IntOp.andi x v reducesTo_S600000_S_d0 h_S_) main_v49 main_c_17
  let main_v51 : IVec S_ 1 := andi main_v40 main_v50
  fn_part3 (F := F) main_arg2 main_v51

def fn_part1 {F : FTy → Type} [FloatOps F] (main_arg0 : IVec S50000 32) (main_arg1 : IVec S2x600000 32) (main_arg2 : IVec S2x200000 32) (main_arg7 : FVec F S128x128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_v33

def fn {F : FTy → Type} [FloatOps F] (main_arg0 : IVec S50000 32) (main_arg1 : IVec S2x600000 32) (main_arg2 : IVec S2x200000 32) (main_arg3 : FVec F S50000x128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg7 main_arg8 main_arg9 main_v13 main_v16
-- ==== Kernel.lean ====
abbrev S50000 : Shape := ⟨1, ![50000]⟩
abbrev S2x600000 : Shape := ⟨2, ![2, 600000]⟩
abbrev S2x200000 : Shape := ⟨2, ![2, 200000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S8000x128 : Shape := ⟨2, ![8000, 128]⟩
abbrev S8000x1 : Shape := ⟨2, ![8000, 1]⟩
abbrev S8000 : Shape := ⟨1, ![8000]⟩

abbrev nBuf : Space → Nat
  | .hbm => 166
  | .vmem => 24
  | .smem => 0
  | _ => 0

abbrev hbmTy0_0 (i : Nat) : BufTy := match i % 128 with
  | 0 => ⟨S50000, .i32⟩
  | 1 => ⟨S2x600000, .i32⟩
  | 2 => ⟨S2x200000, .i32⟩
  | 3 => ⟨S50000x128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S1, .i32⟩
  | 19 => ⟨S_, .i32⟩
  | 20 => ⟨S50000x1, .i32⟩
  | 21 => ⟨S50000x1, .i1⟩
  | 22 => ⟨S1x1, .i32⟩
  | 23 => ⟨S50000x1, .i32⟩
  | 24 => ⟨S50000x1, .i1⟩
  | 25 => ⟨S50000x1, .i1⟩
  | 26 => ⟨S_, .i1⟩
  | 27 => ⟨S50000, .i1⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S1x600000, .i32⟩
  | 34 => ⟨S600000, .i32⟩
  | 35 => ⟨S1x600000, .i32⟩
  | 36 => ⟨S600000, .i32⟩
  | 37 => ⟨S_, .f32⟩
  | 38 => ⟨S600000x1, .f32⟩
  | 39 => ⟨S_, .f32⟩
  | 40 => ⟨S50000x1, .f32⟩
  | 41 => ⟨S600000x1, .i32⟩
  | 42 => ⟨S50000x1, .f32⟩
  | 43 => ⟨S_, .f32⟩
  | 44 => ⟨S50000x1, .f32⟩
  | 45 => ⟨S50000x1, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S1, .i32⟩
  | 55 => ⟨S_, .i32⟩
  | 56 => ⟨S600000x1, .i32⟩
  | 57 => ⟨S600000x1, .i1⟩
  | 58 => ⟨S1x1, .i32⟩
  | 59 => ⟨S600000x1, .i32⟩
  | 60 => ⟨S600000x1, .i1⟩
  | 61 => ⟨S600000x1, .i1⟩
  | 62 => ⟨S_, .i1⟩
  | 63 => ⟨S600000, .i1⟩
  | 64 => ⟨S600000x128, .f32⟩
  | 65 => ⟨S600000x128, .i1⟩
  | 66 => ⟨S_, .f32⟩
  | 67 => ⟨S600000x128, .f32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S50000x128, .f32⟩
  | 74 => ⟨S50000x128, .f32⟩
  | 75 => ⟨S128x128, .f32⟩
  | 76 => ⟨S128x128, .bf16⟩
  | 77 => ⟨S128x128, .f32⟩
  | 78 => ⟨S128x128, .bf16⟩
  | 79 => ⟨S50000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S1, .i32⟩
  | 89 => ⟨S_, .i32⟩
  | 90 => ⟨S600000x1, .i32⟩
  | 91 => ⟨S600000x1, .i1⟩
  | 92 => ⟨S1x1, .i32⟩
  | 93 => ⟨S600000x1, .i32⟩
  | 94 => ⟨S600000x1, .i1⟩
  | 95 => ⟨S600000x1, .i1⟩
  | 96 => ⟨S_, .i1⟩
  | 97 => ⟨S600000, .i1⟩
  | 98 => ⟨S600000x128, .f32⟩
  | 99 => ⟨S600000x128, .i1⟩
  | 100 => ⟨S_, .f32⟩
  | 101 => ⟨S600000x128, .f32⟩
  | 102 => ⟨S600000x128, .f32⟩
  | 103 => ⟨S_, .f32⟩
  | 104 => ⟨S50000x128, .f32⟩
  | 105 => ⟨S600000x1, .i32⟩
  | 106 => ⟨S50000x128, .f32⟩
  | 107 => ⟨S50000x128, .f32⟩
  | 108 => ⟨S50000x128, .f32⟩
  | 109 => ⟨S128x128, .f32⟩
  | 110 => ⟨S128x128, .bf16⟩
  | 111 => ⟨S128x128, .f32⟩
  | 112 => ⟨S128x128, .bf16⟩
  | 113 => ⟨S50000x128, .f32⟩
  | 114 => ⟨S1x200000, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S1, .i32⟩
  | 125 => ⟨S_, .i32⟩
  | 126 => ⟨S200000x1, .i32⟩
  | 127 => ⟨S200000x1, .i1⟩
  | _ => ⟨S50000, .i32⟩

abbrev hbmTy0_1 (i : Nat) : BufTy := match i % 128 with
  | 0 => ⟨S1x1, .i32⟩
  | 1 => ⟨S200000x1, .i32⟩
  | 2 => ⟨S200000x1, .i1⟩
  | 3 => ⟨S200000x1, .i1⟩
  | 4 => ⟨S_, .i1⟩
  | 5 => ⟨S200000, .i1⟩
  | 6 => ⟨S200000x128, .f32⟩
  | 7 => ⟨S200000x128, .i1⟩
  | 8 => ⟨S_, .f32⟩
  | 9 => ⟨S200000x128, .f32⟩
  | 10 => ⟨S200000x128, .f32⟩
  | 11 => ⟨S1x200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S1, .i32⟩
  | 22 => ⟨S_, .i32⟩
  | 23 => ⟨S200000x1, .i32⟩
  | 24 => ⟨S200000x1, .i1⟩
  | 25 => ⟨S1x1, .i32⟩
  | 26 => ⟨S200000x1, .i32⟩
  | 27 => ⟨S200000x1, .i1⟩
  | 28 => ⟨S200000x1, .i1⟩
  | 29 => ⟨S_, .i1⟩
  | 30 => ⟨S200000, .i1⟩
  | 31 => ⟨S200000x128, .f32⟩
  | 32 => ⟨S200000x128, .i1⟩
  | 33 => ⟨S_, .f32⟩
  | 34 => ⟨S200000x128, .f32⟩
  | 35 => ⟨S200000x128, .f32⟩
  | 36 => ⟨S200000x1, .f32⟩
  | 37 => ⟨S200000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x1, .f32⟩
  | .local _ .vmem, ⟨23, _⟩ => ⟨S8000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_cst_2 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v22 : Ref sig .tc := ⟨.hbm, 102, rfl⟩
abbrev main_cst_3 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_call4_cst : Ref sig .tc := ⟨.hbm, 161, rfl⟩
abbrev main_call4_v15 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  slices_S2x200000_S1x200000_1_0 : S2x200000.Slices ![1, 0] S1x200000
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  gather_S50000x128_S50000x1_S50000x128_1_0_n_n_0_1_1128_wf : GatherDims.WF S50000x128 S50000x1 S50000x128 [1] [0] [] [0] [] 1 ![1, 128]
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S200000x128.size a
  hwx2_1 : ∀ i : grid2.Coords, EltTy.bits .f32 = 32 ∨ (Rect.block (s := S200000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000 : Shape := ⟨1, ![50000]⟩
abbrev S2x600000 : Shape := ⟨2, ![2, 600000]⟩
abbrev S2x200000 : Shape := ⟨2, ![2, 200000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 115
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S2x200000, .i32⟩
  | .hbm, ⟨3, _⟩ => ⟨S50000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S600000x1, .f32⟩
  | .hbm, ⟨38, _⟩ => ⟨S_, .f32⟩
  | .hbm, ⟨39, _⟩ => ⟨S50000x1, .f32⟩
  | .hbm, ⟨40, _⟩ => ⟨S600000x1, .i32⟩
  | .hbm, ⟨41, _⟩ => ⟨S50000x1, .f32⟩
  | .hbm, ⟨42, _⟩ => ⟨S_, .f32⟩
  | .hbm, ⟨43, _⟩ => ⟨S50000x1, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S_, .f32⟩
  | .hbm, ⟨72, _⟩ => ⟨S600000x1, .f32⟩
  | .hbm, ⟨73, _⟩ => ⟨S_, .f32⟩
  | .hbm, ⟨74, _⟩ => ⟨S50000x1, .f32⟩
  | .hbm, ⟨75, _⟩ => ⟨S600000x1, .i32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x128, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x128, .f32⟩
  | .hbm, ⟨112, _⟩ => ⟨S200000x128, .f32⟩
  | .hbm, ⟨113, _⟩ => ⟨S_, .f32⟩
  | .hbm, ⟨114, _⟩ => ⟨S200000, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.Fill.lean ====
/-
  A row gather that fills out-of-range rows, when no row is out of range.

  Rows of a table of 50000 rows are gathered at a vector of 32-bit indices. An index `b` is first wrapped: if `b < 0` (read
  signed) it becomes `b + 50000`, otherwise it stays. A wrapped index `w` is in bounds when `0 ≤ w` and `w ≤ 49999`; the row
  gathered at an index that is not in bounds is replaced, entry by entry, by a fixed filling value. The in-bounds test is
  computed on the indices kept as a one-column array, reduced by `and` over that unit axis from the word 1, and copied
  along each row.

  If every index lies in [-50000, 50000), every wrapped index lies in [0, 49999]: a negative `b ≥ -50000` wraps to
  `b + 50000 ∈ [0, 49999]` with no overflow of the 32-bit sum, a non-negative `b < 50000` is kept. So every word of the
  in-bounds test is 1; an `and` of 1s from 1 is 1; a copy of an all-1 vector is all 1; and a select on an all-1 mask is
  its first operand. The filled gather is then the plain gather, whatever the gathered rows and the filling value are.

  The argument reads no coordinate of any index, so it is made once for arbitrary shapes and axis maps (`select_inb_eq`)
  and the three sizes of the program (50000, 600000 and 200000 indices) are instances.
-/
import Idealize.ShloMosaic.Lib.ReduceAll
import Idealize.ShloMosaic.Lib.WordArith
import Idealize.ShloMosaic.Lib.ValueIdx
import proofs.«409206_j74612171866597_1_alg».proof.KernelIdeal
import proofs.«409206_j74612171866597_1_alg».proof.Proof.Gen.KernelIdeal

noncomputable section

open Cert.KernelIdeal Cert.KernelIdeal.Facts₀ Cert.KernelIdeal.Facts Idealize.ShloMosaic

namespace Cert.KernelIdeal.Fill

/-! ## One index word -/

/-- A 32-bit index in [-50000, 50000), wrapped (plus 50000 when negative), passes both bounds tests: it is at least 0
    and at most 49999, read signed. -/
theorem wrap_inb (b : BitVec 32) (h : -50000 ≤ b.toInt ∧ b.toInt < 50000) :
    IntOp.andi
      (IntOp.cmpi .sge (Scalar.select (IntOp.cmpi .slt b 0#32) (IntOp.addi b 50000#32) b) 0#32)
      (IntOp.cmpi .sle (Scalar.select (IntOp.cmpi .slt b 0#32) (IntOp.addi b 50000#32) b) 49999#32) = 1#1 := by
  have h0 : (0#32 : BitVec 32).toInt = 0 := by decide
  have h1 : (49999#32 : BitVec 32).toInt = 49999 := by decide
  have h2 : (50000#32 : BitVec 32).toInt = 50000 := by decide
  rw [IntOp.andi_eq_one, IntOp.cmpi_sge, IntOp.cmpi_sle, h0, h1]
  by_cases hneg : b.toInt < 0
  · -- a negative index: the sum b + 50000 is in [0, 49999], far from the 32-bit range's ends
    have hc : IntOp.cmpi .slt b 0#32 = 1#1 := IntOp.cmpi_slt.2 (by rw [h0]; exact hneg)
    have hs : (IntOp.addi b 50000#32).toInt = b.toInt + 50000 := by
      show (b + 50000#32).toInt = _
      rw [WordArith.toInt_add_of_bounds _ _ (by rw [h2]; omega) (by rw [h2]; omega), h2]
    rw [hc, ValueIdx.select_one, hs]
    omega
  · -- a non-negative index is kept
    have hc : ¬IntOp.cmpi .slt b 0#32 = 1#1 := fun e => hneg (by have := IntOp.cmpi_slt.1 e; rwa [h0] at this)
    rw [ValueIdx.eq_zero_of_ne_one hc, ValueIdx.select_zero]
    omega

/-! ## An `and` of ones, and a copy of ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and`, from an initial word 1, of an array whose words are all 1 is 1 at every result index,
    whatever the axes reduced. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- A broadcast reads its operand somewhere: of an operand that is `c` everywhere it is `c` everywhere. -/
theorem broadcastInDim_of_forall {α : Type} {s t : Shape} (dims : Fin s.rank → Fin t.rank) (h : s.BroadcastsInDim t dims)
    (x : s.Idx → α) (c : α) (hx : ∀ k, x k = c) (j : t.Idx) : broadcastInDim t dims h x j = c := by
  unfold broadcastInDim
  exact hx _

/-! ## The filled gather is the plain one -/

/-- For index vectors of any shape `A`, kept as an array of shape `B`, tested there, reduced back to `A` and copied to
    the result's shape `C`: when every index is in [-50000, 50000) the select on the in-bounds mask returns its first
    operand. -/
theorem select_inb_eq {A B C : Shape} {α : Type}
    {d0 : Fin S_.rank → Fin A.rank} (b0 : S_.BroadcastsInDim A d0)
    {d1 : Fin A.rank → Fin B.rank} (b1 : A.BroadcastsInDim B d1)
    {d2 : Fin S_.rank → Fin B.rank} (b2 : S_.BroadcastsInDim B d2)
    {d3 : Fin S1.rank → Fin S1x1.rank} (b3 : S1.BroadcastsInDim S1x1 d3)
    {d4 : Fin S1x1.rank → Fin B.rank} (b4 : S1x1.BroadcastsInDim B d4)
    {axes : List (Fin B.rank)} (r : B.ReducesTo axes A) (hu : 0 < S_.numel)
    {d5 : Fin A.rank → Fin C.rank} (b5 : A.BroadcastsInDim C d5)
    (idx : IVec A 32) (h : ∀ i, -50000 ≤ (idx i).toInt ∧ (idx i).toInt < 50000) (g y : C.Idx → α) :
    select
      (broadcastInDim C d5 b5
        (Host.reduce IntOp.andi
          (andi
            (cmpi .sge
              (broadcastInDim B d1 b1
                (select (cmpi .slt idx (broadcastInDim A d0 b0 (constantI S_ 32 0#32)))
                  (addi idx (broadcastInDim A d0 b0 (constantI S_ 32 50000#32))) idx))
              (broadcastInDim B d2 b2 (constantI S_ 32 0#32)))
            (cmpi .sle
              (broadcastInDim B d1 b1
                (select (cmpi .slt idx (broadcastInDim A d0 b0 (constantI S_ 32 0#32)))
                  (addi idx (broadcastInDim A d0 b0 (constantI S_ 32 50000#32))) idx))
              (broadcastInDim B d4 b4 (broadcastInDim S1x1 d3 b3 (constantI S1 32 49999#32)))))
          (constantI S_ 1 1#1) r hu))
      g y = g := by
  funext j
  rw [ValueIdx.select_apply]
  have hm : ∀ i : B.Idx,
      (andi
        (cmpi .sge
          (broadcastInDim B d1 b1
            (select (cmpi .slt idx (broadcastInDim A d0 b0 (constantI S_ 32 0#32)))
              (addi idx (broadcastInDim A d0 b0 (constantI S_ 32 50000#32))) idx))
          (broadcastInDim B d2 b2 (constantI S_ 32 0#32)))
        (cmpi .sle
          (broadcastInDim B d1 b1
            (select (cmpi .slt idx (broadcastInDim A d0 b0 (constantI S_ 32 0#32)))
              (addi idx (broadcastInDim A d0 b0 (constantI S_ 32 50000#32))) idx))
          (broadcastInDim B d4 b4 (broadcastInDim S1x1 d3 b3 (constantI S1 32 49999#32))))) i = 1#1 := by
    intro i
    -- every operation is entry by entry and every broadcast of a constant is the constant: the word at `i` is the
    -- two-sided test of one wrapped index
    unfold broadcastInDim
    exact wrap_inb (idx _) (h _)
  rw [broadcastInDim_of_forall d5 b5 _ 1#1 (reduce_andi_of_all_one _ _ r hu rfl hm) j, ValueIdx.select_one]

variable [Cert.KernelIdeal.Facts]

/-! ## 50000 indices -/

/-- The indices wrapped, as a one-column array. -/
abbrev wrapCol50k (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 50000#32))) idx)

/-- The in-bounds mask of a column of wrapped indices, copied along each row. -/
abbrev inb50k (w : IVec S50000x1 32) : IVec S50000x128 1 :=
  broadcastInDim S50000x128 ![0] bcast_S50000_S50000x128_0
    (Host.reduce IntOp.andi
      (andi (cmpi .sge w (broadcastInDim S50000x1 ![] bcast_S_S50000x1 (constantI S_ 32 0#32)))
        (cmpi .sle w (broadcastInDim S50000x1 ![0, 1] bcast_S1x1_S50000x1_0_1 (broadcastInDim S1x1 ![1] bcast_S1_S1x1_1 (constantI S1 32 49999#32)))))
      (constantI S_ 1 1#1) reducesTo_S50000x1_S50000_d1 h_S_)

/-- The filling value, everywhere. -/
abbrev nan50k : FVec Ideal S50000x128 .f32 := broadcastInDim S50000x128 ![] bcast_S_S50000x128 (constant S_ .f32 0x7FC00000#32)

/-- With every index in [-50000, 50000), the filled gather of 50000 rows is the plain gather. -/
theorem fill50k (x : FVec Ideal S50000x128 .f32) (idx : IVec S50000 32) (h : ∀ i, -50000 ≤ (idx i).toInt ∧ (idx i).toInt < 50000) :
    select (inb50k (wrapCol50k idx)) (Host.gather gather_S50000x128_S50000x1_S50000x128_1_0_n_n_0_1_1128 x (wrapCol50k idx)) nan50k
      = Host.gather gather_S50000x128_S50000x1_S50000x128_1_0_n_n_0_1_1128 x (wrapCol50k idx) :=
  select_inb_eq bcast_S_S50000 bcast_S50000_S50000x1_0 bcast_S_S50000x1 bcast_S1_S1x1_1 bcast_S1x1_S50000x1_0_1
    reducesTo_S50000x1_S50000_d1 h_S_ bcast_S50000_S50000x128_0 idx h _ _

/-! ## 600000 indices -/

/-- The indices wrapped, as a one-column array. -/
abbrev wrapCol600k (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- The in-bounds mask of a column of wrapped indices, copied along each row. -/
abbrev inb600k (w : IVec S600000x1 32) : IVec S600000x128 1 :=
  broadcastInDim S600000x128 ![0] bcast_S600000_S600000x128_0
    (Host.reduce IntOp.andi
      (andi (cmpi .sge w (broadcastInDim S600000x1 ![] bcast_S_S600000x1 (constantI S_ 32 0#32)))
        (cmpi .sle w (broadcastInDim S600000x1 ![0, 1] bcast_S1x1_S600000x1_0_1 (broadcastInDim S1x1 ![1] bcast_S1_S1x1_1 (constantI S1 32 49999#32)))))
      (constantI S_ 1 1#1) reducesTo_S600000x1_S600000_d1 h_S_)

/-- The filling value, everywhere. -/
abbrev nan600k : FVec Ideal S600000x128 .f32 := broadcastInDim S600000x128 ![] bcast_S_S600000x128 (constant S_ .f32 0x7FC00000#32)

/-- With every index in [-50000, 50000), the filled gather of 600000 rows is the plain gather. -/
theorem fill600k (x : FVec Ideal S50000x128 .f32) (idx : IVec S600000 32) (h : ∀ i, -50000 ≤ (idx i).toInt ∧ (idx i).toInt < 50000) :
    select (inb600k (wrapCol600k idx)) (Host.gather gather_S50000x128_S600000x1_S600000x128_1_0_n_n_0_1_1128 x (wrapCol600k idx)) nan600k
      = Host.gather gather_S50000x128_S600000x1_S600000x128_1_0_n_n_0_1_1128 x (wrapCol600k idx) :=
  select_inb_eq bcast_S_S600000 bcast_S600000_S600000x1_0 bcast_S_S600000x1 bcast_S1_S1x1_1 bcast_S1x1_S600000x1_0_1
    reducesTo_S600000x1_S600000_d1 h_S_ bcast_S600000_S600000x128_0 idx h _ _

/-! ## 200000 indices -/

/-- The indices wrapped, as a one-column array. -/
abbrev wrapCol200k (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32))) idx)

/-- The in-bounds mask of a column of wrapped indices, copied along each row. -/
abbrev inb200k (w : IVec S200000x1 32) : IVec S200000x128 1 :=
  broadcastInDim S200000x128 ![0] bcast_S200000_S200000x128_0
    (Host.reduce IntOp.andi
      (andi (cmpi .sge w (broadcastInDim S200000x1 ![] bcast_S_S200000x1 (constantI S_ 32 0#32)))
        (cmpi .sle w (broadcastInDim S200000x1 ![0, 1] bcast_S1x1_S200000x1_0_1 (broadcastInDim S1x1 ![1] bcast_S1_S1x1_1 (constantI S1 32 49999#32)))))
      (constantI S_ 1 1#1) reducesTo_S200000x1_S200000_d1 h_S_)

/-- The filling value, everywhere. -/
abbrev nan200k : FVec Ideal S200000x128 .f32 := broadcastInDim S200000x128 ![] bcast_S_S200000x128 (constant S_ .f32 0x7FC00000#32)

/-- With every index in [-50000, 50000), the filled gather of 200000 rows is the plain gather. -/
theorem fill200k (x : FVec Ideal S50000x128 .f32) (idx : IVec S200000 32) (h : ∀ i, -50000 ≤ (idx i).toInt ∧ (idx i).toInt < 50000) :
    select (inb200k (wrapCol200k idx)) (Host.gather gather_S50000x128_S200000x1_S200000x128_1_0_n_n_0_1_1128 x (wrapCol200k idx)) nan200k
      = Host.gather gather_S50000x128_S200000x1_S200000x128_1_0_n_n_0_1_1128 x (wrapCol200k idx) :=
  select_inb_eq bcast_S_S200000 bcast_S200000_S200000x1_0 bcast_S_S200000x1 bcast_S1_S1x1_1 bcast_S1x1_S200000x1_0_1
    reducesTo_S200000x1_S200000_d1 h_S_ bcast_S200000_S200000x128_0 idx h _ _

end Cert.KernelIdeal.Fill

end
-- ==== Proof.Decode.lean ====
/-
  The index arrays of the two programs, read as integers.

  The precondition of the claim is a conjunction of one-bit words. Seven of them test the float arguments and are not
  opened here; the last three say that every word of the node array, every word of the first row of the edge array, and
  every word of the pair array lies in [-50000, 50000) when read signed. The first part of this file turns "the
  conjunction is 1" into those three families of inequalities.

  The second part reads a row of a two-row integer array, cut out as a [1, n] block and then flattened to length n: its
  entry at position i is the entry (r, i) of the array.
-/
import proofs.«409206_j74612171866597_1_alg».proof.Pre_finite_inputs
import proofs.«409206_j74612171866597_1_alg».proof.Proof.Gen.Pre_finite_inputs
import proofs.«409206_j74612171866597_1_alg».proof.Proof.Gen.KernelIdeal
import Idealize.ShloMosaic.Lib.ReduceAll
import Idealize.ShloMosaic.Lib.ValueIdx
import Idealize.ShloMosaic.Lib.ValueLayout
import Idealize.ShloMosaic.Lib.Pipeline.Value
import Idealize.ShloMosaic.Lib.StableHlo.Predicate

noncomputable section

/-! ## A row of a two-row array, cut out and flattened -/

namespace Cert.Rows

open Idealize.ShloMosaic Idealize.ShloMosaic.ValueIdx

/-- Row `r` of a [2, n] array, taken as the [1, n] block at offset (r, 0) and flattened to length n, holds at
    position `i` the array's entry (r, i): the flattening keeps the row-major position, which in a one-row block is the
    column, and the block's entry (0, k) is the array's entry (r + 0, 0 + k). -/
theorem row_read {α : Type} {n : ℕ} (r : Fin 2) (off : Fin 2 → ℕ) (h0 : off 0 = r.val) (h1 : off 1 = 0)
    (a : (⟨2, ![2, n]⟩ : Shape).Idx → α) (hs : (⟨2, ![2, n]⟩ : Shape).Slices off ⟨2, ![1, n]⟩)
    (hc : (⟨2, ![1, n]⟩ : Shape).ShapeCasts ⟨1, ![n]⟩) (i : (⟨1, ![n]⟩ : Shape).Idx) :
    shapeCast ⟨1, ![n]⟩ (extractStridedSlice ⟨2, ![1, n]⟩ off a hs) hc i = a (ix2 r (i 0)) := by
  obtain ⟨k, rfl⟩ : ∃ k, i = ix1 k := ⟨i 0, eq_ix1 i⟩
  rw [shapeCast_1a_a_apply]
  refine extractStridedSlice_apply off a hs _ _ fun d => ?_
  match d with
  | ⟨0, _⟩ =>
    show r.val = off 0 + 0
    rw [h0, Nat.add_zero]
  | ⟨1, _⟩ =>
    show k.val = off 1 + k.val
    rw [h1, Nat.zero_add]

end Cert.Rows

namespace Cert.KernelIdeal.Rows

open Idealize.ShloMosaic Idealize.ShloMosaic.ValueIdx
open Cert.KernelIdeal Cert.KernelIdeal.Facts₀ Cert.KernelIdeal.Facts

variable [Cert.KernelIdeal.Facts]

/-- The edge array's first row (the source node of each edge) read at an edge. -/
theorem src_apply (a1 : IVec S2x600000 32) (i : S600000.Idx) :
    shapeCast S600000 (extractStridedSlice S1x600000 ![0, 0] a1 slices_S2x600000_S1x600000_0_0) shapeCasts_S1x600000_S600000 i
      = a1 (ix2 (0 : Fin 2) (i 0)) :=
  Cert.Rows.row_read 0 ![0, 0] rfl rfl a1 slices_S2x600000_S1x600000_0_0 shapeCasts_S1x600000_S600000 i

/-- The pair array's first row read at a pair. -/
theorem lab0_apply (a2 : IVec S2x200000 32) (i : S200000.Idx) :
    shapeCast S200000 (extractStridedSlice S1x200000 ![0, 0] a2 slices_S2x200000_S1x200000_0_0) shapeCasts_S1x200000_S200000 i
      = a2 (ix2 (0 : Fin 2) (i 0)) :=
  Cert.Rows.row_read 0 ![0, 0] rfl rfl a2 slices_S2x200000_S1x200000_0_0 shapeCasts_S1x200000_S200000 i

/-- The pair array's second row read at a pair. -/
theorem lab1_apply (a2 : IVec S2x200000 32) (i : S200000.Idx) :
    shapeCast S200000 (extractStridedSlice S1x200000 ![1, 0] a2 slices_S2x200000_S1x200000_1_0) shapeCasts_S1x200000_S200000 i
      = a2 (ix2 (1 : Fin 2) (i 0)) :=
  Cert.Rows.row_read 1 ![1, 0] rfl rfl a2 slices_S2x200000_S1x200000_1_0 shapeCasts_S1x200000_S200000 i

end Cert.KernelIdeal.Rows

/-! ## The precondition, decoded -/

namespace Cert.Pre_finite_inputs.Decode

open Cert.Pre_finite_inputs Idealize.ShloMosaic Idealize.ShloMosaic.ValueIdx
open Cert.Pre_finite_inputs.Facts

/-- The scalar shape has one index. -/
instance : Subsingleton S_.Idx := ⟨fun a b => funext fun d => d.elim0⟩

/-- One word passing both tests, `w ≥ -50000` and `w < 50000` as signed comparisons, lies in that range read signed:
    the word 4294917296 is -50000 in two's complement. -/
theorem range_of_tests (w : BitVec 32)
    (h : IntOp.andi (IntOp.cmpi .sge w 4294917296#32) (IntOp.cmpi .slt w 50000#32) = 1#1) :
    -50000 ≤ w.toInt ∧ w.toInt < 50000 := by
  obtain ⟨h1, h2⟩ := IntOp.andi_eq_one.1 h
  rw [IntOp.cmpi_sge] at h1
  rw [IntOp.cmpi_slt] at h2
  have e1 : (4294917296#32 : BitVec 32).toInt = -50000 := by decide
  have e2 : (50000#32 : BitVec 32).toInt = 50000 := by decide
  rw [e1] at h1
  rw [e2] at h2
  exact ⟨h1, h2⟩

/-- An array all of whose words pass both tests (the conjunction of the two comparison masks, reduced by `and` over
    every axis from 1, is 1) has every word in the range. -/
theorem all_range {s : Shape} {axes : List (Fin s.rank)} (x : IVec s 32)
    (bl : S_.BroadcastsInDim s (![] : Fin 0 → Fin s.rank)) (hr : s.ReducesTo axes S_) (h0 : 0 < S_.numel)
    (e : Host.reduce IntOp.andi
          (andi (cmpi .sge x (broadcastInDim s ![] bl (constantI S_ 32 4294917296#32)))
                (cmpi .slt x (broadcastInDim s ![] bl (constantI S_ 32 50000#32))))
          (constantI S_ 1 1#1) hr h0 ix0 = 1#1) (i : s.Idx) :
    -50000 ≤ (x i).toInt ∧ (x i).toInt < 50000 :=
  range_of_tests (x i) (Host.reduce_andi_all _ _ hr h0 ix0 e i)

variable [Facts]

/-- The precondition holding gives the three index ranges: every node word, every source word of an edge, and every
    word of the pair array is in [-50000, 50000). -/
theorem ranges_of_fn (a0 : IVec S50000 32) (a1 : IVec S2x600000 32) (a2 : IVec S2x200000 32)
    (a3 : FVec Ideal S50000x128 .f32) (a4 a5 : FVec Ideal S128x128 .f32) (a6 : FVec Ideal S128 .f32)
    (a7 a8 : FVec Ideal S128x128 .f32) (a9 : FVec Ideal S128 .f32)
    (h : fn (F := Ideal) a0 a1 a2 a3 a4 a5 a6 a7 a8 a9 = fun _ => 1#1) :
    (∀ i : S50000.Idx, -50000 ≤ (a0 i).toInt ∧ (a0 i).toInt < 50000)
    ∧ (∀ j : Fin 600000, -50000 ≤ (a1 (ix2 (0 : Fin 2) j)).toInt ∧ (a1 (ix2 (0 : Fin 2) j)).toInt < 50000)
    ∧ (∀ i : S2x200000.Idx, -50000 ≤ (a2 i).toInt ∧ (a2 i).toInt < 50000) := by
  have h' := congrFun h ix0
  unfold fn fn_part1 fn_part2 fn_part3 at h'
  dsimp only at h'
  -- the result is ((floats ∧ nodes) ∧ sources) ∧ pairs
  have h4 : IntOp.andi _ _ = 1#1 := h'
  obtain ⟨h3, hc⟩ := IntOp.andi_eq_one.1 h4
  have h3' : IntOp.andi _ _ = 1#1 := h3
  obtain ⟨h2, hb⟩ := IntOp.andi_eq_one.1 h3'
  have h2' : IntOp.andi _ _ = 1#1 := h2
  obtain ⟨-, ha⟩ := IntOp.andi_eq_one.1 h2'
  refine ⟨fun i => all_range a0 _ _ _ ha i, fun j => ?_, fun i => all_range a2 _ _ _ hc i⟩
  have hj := all_range _ _ _ _ hb (ix1 j)
  rwa [Cert.Rows.row_read 0 ![0, 0] rfl rfl a1] at hj

end Cert.Pre_finite_inputs.Decode

end
-- ==== Proof.KDefs.lean ====
/-
  The names the run of the program is read with.

  The program gathers rows of a 50000-row table four times with a gather that fills out-of-range rows, at the node ids,
  at the source of every edge, and at both ends of every scored pair; it slices the edge array and the pair array into
  their two rows. Here those operations are named once, spelled as the program composes them, together with the one
  hypothesis the comparison with the reference needs — every gathering index is a row of the table, counted from the
  front or from the back — and its derivation from the precondition.
-/
import proofs.«409206_j74612171866597_1_alg».proof.Proof.Gen.KernelIdeal.Frame
import proofs.«409206_j74612171866597_1_alg».proof.Proof.Gen.ReferenceIdeal.Read
import proofs.«409206_j74612171866597_1_alg».proof.Proof.Fill
import proofs.«409206_j74612171866597_1_alg».proof.Proof.Decode
import proofs.«409206_j74612171866597_1_alg».proof.Defs
import Idealize.ShloMosaic.Lib.StableHlo.Run
import Idealize.ShloMosaic.PureOps.Ideal

set_option maxRecDepth 16384
set_option maxHeartbeats 4000000

noncomputable section

namespace Cert.KernelIdeal.KChain

open Cert.KernelIdeal Cert.KernelIdeal.Gen Cert.KernelIdeal.Fill
open Cert.ReferenceIdeal.Read
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## The index rows and the filled gathers, as the program spells them -/

/-- The source row of the edge array, sliced and flattened. -/
abbrev srcRow (a1 : IVec S2x600000 32) : IVec S600000 32 :=
  shapeCast S600000 (extractStridedSlice S1x600000 ![0, 0] a1 Gen.slices_S2x600000_S1x600000_0_0) Gen.shapeCasts_S1x600000_S600000
/-- The destination row of the edge array. -/
abbrev dstRow (a1 : IVec S2x600000 32) : IVec S600000 32 :=
  shapeCast S600000 (extractStridedSlice S1x600000 ![1, 0] a1 Gen.slices_S2x600000_S1x600000_1_0) Gen.shapeCasts_S1x600000_S600000
/-- The first row of the pair array. -/
abbrev labRow0 (a2 : IVec S2x200000 32) : IVec S200000 32 :=
  shapeCast S200000 (extractStridedSlice S1x200000 ![0, 0] a2 Gen.slices_S2x200000_S1x200000_0_0) Gen.shapeCasts_S1x200000_S200000
/-- The second row of the pair array. -/
abbrev labRow1 (a2 : IVec S2x200000 32) : IVec S200000 32 :=
  shapeCast S200000 (extractStridedSlice S1x200000 ![1, 0] a2 Gen.slices_S2x200000_S1x200000_1_0) Gen.shapeCasts_S1x200000_S200000

/-- Rows of a table gathered at 50000 indices, out-of-range rows filled. -/
abbrev fill50 (x : FVec Ideal S50000x128 .f32) (idx : IVec S50000 32) : FVec Ideal S50000x128 .f32 :=
  select (inb50k (wrapCol50k idx)) (Host.gather gather_S50000x128_S50000x1_S50000x128_1_0_n_n_0_1_1128 x (wrapCol50k idx)) nan50k
/-- Rows of a table gathered at 600000 indices, out-of-range rows filled. -/
abbrev fill600 (x : FVec Ideal S50000x128 .f32) (idx : IVec S600000 32) : FVec Ideal S600000x128 .f32 :=
  select (inb600k (wrapCol600k idx)) (Host.gather gather_S50000x128_S600000x1_S600000x128_1_0_n_n_0_1_1128 x (wrapCol600k idx)) nan600k
/-- Rows of a table gathered at 200000 indices, out-of-range rows filled. -/
abbrev fill200 (x : FVec Ideal S50000x128 .f32) (idx : IVec S200000 32) : FVec Ideal S200000x128 .f32 :=
  select (inb200k (wrapCol200k idx)) (Host.gather gather_S50000x128_S200000x1_S200000x128_1_0_n_n_0_1_1128 x (wrapCol200k idx)) nan200k

/-- The neighbour mean from the per-edge messages: summed per destination node, divided by the clamped in-degree. -/
abbrev meanOf (msgs : FVec Ideal S600000x128 .f32) (a1 : IVec S2x600000 32) : FVec Ideal S50000x128 .f32 :=
  Host.divf
    (Host.scatterAdd scatter_S50000x128_S600000x1_S600000x128_1_0_0_1
      (broadcastInDim S50000x128 ![] Gen.bcast_S_S50000x128 (constant (F := Ideal) S_ .f32 0x00000000#32))
      (broadcastInDim S600000x1 ![0] Gen.bcast_S600000_S600000x1_0 (dstRow a1)) msgs)
    (broadcastInDim S50000x128 ![0, 1] Gen.bcast_S50000x1_S50000x128_0_1 (val_main_v26 (F := Ideal) a1))

/-- The neighbour mean from the per-edge messages, the destination row and the clamped in-degree: the messages summed
    per destination node, divided by the in-degree copied along each row. -/
abbrev meanOf3 (msgs : FVec Ideal S600000x128 .f32) (dst : IVec S600000 32) (cnt : FVec Ideal S50000x1 .f32) : FVec Ideal S50000x128 .f32 :=
  Host.divf
    (Host.scatterAdd scatter_S50000x128_S600000x1_S600000x128_1_0_0_1
      (broadcastInDim S50000x128 ![] Gen.bcast_S_S50000x128 (constant (F := Ideal) S_ .f32 0x00000000#32))
      (broadcastInDim S600000x1 ![0] Gen.bcast_S600000_S600000x1_0 dst) msgs)
    (broadcastInDim S50000x128 ![0, 1] Gen.bcast_S50000x1_S50000x128_0_1 cnt)

/-! ## The index ranges -/

/-- Every index the program gathers with is a row of the 50000-row table, counted from the front (non-negative) or from
    the back (negative): the node ids, the source of every edge, and both ends of every scored pair. -/
structure InRange : Prop where
  nid : ∀ i, -50000 ≤ ((m ((c : Thread nD τ).loc main_arg0)) i).toInt ∧ ((m ((c : Thread nD τ).loc main_arg0)) i).toInt < 50000
  src : ∀ i, -50000 ≤ (srcRow (m ((c : Thread nD τ).loc main_arg1)) i).toInt ∧ (srcRow (m ((c : Thread nD τ).loc main_arg1)) i).toInt < 50000
  lab0 : ∀ i, -50000 ≤ (labRow0 (m ((c : Thread nD τ).loc main_arg2)) i).toInt ∧ (labRow0 (m ((c : Thread nD τ).loc main_arg2)) i).toInt < 50000
  lab1 : ∀ i, -50000 ≤ (labRow1 (m ((c : Thread nD τ).loc main_arg2)) i).toInt ∧ (labRow1 (m ((c : Thread nD τ).loc main_arg2)) i).toInt < 50000

/-- The precondition gives the ranges: its three integer tests decoded, the sliced rows read back at their entries. -/
theorem inRange_of_pre (h : Cert.Pre_KernelIdeal (hPre_finite_inputs := Cert.Pre_finite_inputs.Gen.facts) m) : InRange m c := by
  obtain ⟨h0, h1, h2⟩ := Cert.Pre_finite_inputs.Decode.ranges_of_fn _ _ _ _ _ _ _ _ _ _ (h c)
  refine ⟨h0, fun i => ?_, fun i => ?_, fun i => ?_⟩
  · have e := Cert.KernelIdeal.Rows.src_apply (m ((c : Thread nD τ).loc main_arg1)) i
    rw [show srcRow (m ((c : Thread nD τ).loc main_arg1)) i = _ from e]; exact h1 (i 0)
  · have e := Cert.KernelIdeal.Rows.lab0_apply (m ((c : Thread nD τ).loc main_arg2)) i
    rw [show labRow0 (m ((c : Thread nD τ).loc main_arg2)) i = _ from e]; exact h2 _
  · have e := Cert.KernelIdeal.Rows.lab1_apply (m ((c : Thread nD τ).loc main_arg2)) i
    rw [show labRow1 (m ((c : Thread nD τ).loc main_arg2)) i = _ from e]; exact h2 _

/-- A filled gather at in-range node ids is the plain gather. -/
theorem fill50_eq (x : FVec Ideal S50000x128 .f32) (h : InRange m c) :
    fill50 x (m ((c : Thread nD τ).loc main_arg0)) = Host.gather gather_S50000x128_S50000x1_S50000x128_1_0_n_n_0_1_1128 x (wrapCol50k (m ((c : Thread nD τ).loc main_arg0))) :=
  fill50k x _ h.nid
/-- A filled gather at the edges' in-range sources is the plain gather. -/
theorem fill600_eq (x : FVec Ideal S50000x128 .f32) (h : InRange m c) :
    fill600 x (srcRow (m ((c : Thread nD τ).loc main_arg1))) = Host.gather gather_S50000x128_S600000x1_S600000x128_1_0_n_n_0_1_1128 x (wrapCol600k (srcRow (m ((c : Thread nD τ).loc main_arg1)))) :=
  fill600k x _ h.src
/-- A filled gather at the pairs' in-range first ends is the plain gather. -/
theorem fill200_eq0 (x : FVec Ideal S50000x128 .f32) (h : InRange m c) :
    fill200 x (labRow0 (m ((c : Thread nD τ).loc main_arg2))) = Host.gather gather_S50000x128_S200000x1_S200000x128_1_0_n_n_0_1_1128 x (wrapCol200k (labRow0 (m ((c : Thread nD τ).loc main_arg2)))) :=
  fill200k x _ h.lab0
/-- A filled gather at the pairs' in-range second ends is the plain gather. -/
theorem fill200_eq1 (x : FVec Ideal S50000x128 .f32) (h : InRange m c) :
    fill200 x (labRow1 (m ((c : Thread nD τ).loc main_arg2))) = Host.gather gather_S50000x128_S200000x1_S200000x128_1_0_n_n_0_1_1128 x (wrapCol200k (labRow1 (m ((c : Thread nD τ).loc main_arg2)))) :=
  fill200k x _ h.lab1

/-! ## The launch memory at a buffer -/

theorem W0_arg (b : Ref sig .tc) : W0 (F := Ideal) m ρ c (Proc.devRef .tc b) = m ((c : Thread nD τ).loc b) := rfl

end Cert.KernelIdeal.KChain

end
-- ==== Proof.KChain0.lean ====
/-
  The host stretch before the first layer's region, read buffer by buffer.

  Before its first region the program gathers the embedding rows at the node ids, slices the edge array into its source
  and destination rows, counts each node's incoming edges (clamped below at one), gathers the source row of every edge,
  sums those rows per destination and divides by the count, and transposes the two weight matrices. Each of these
  arrays is shown to be the function of the launch arguments that the reference program's corresponding operation
  computes: the operations are the same in the same order once the filled gathers are plain gathers, which they are
  when every index is a row of the table.
-/
import proofs.«409206_j74612171866597_1_alg».proof.Proof.Gen.KernelIdeal.Frame
import proofs.«409206_j74612171866597_1_alg».proof.Proof.Gen.ReferenceIdeal.Read
import proofs.«409206_j74612171866597_1_alg».proof.Proof.Fill
import proofs.«409206_j74612171866597_1_alg».proof.Proof.Decode
import proofs.«409206_j74612171866597_1_alg».proof.Defs
import proofs.«409206_j74612171866597_1_alg».proof.Proof.KDefs
import Idealize.ShloMosaic.Lib.StableHlo.Run
import Idealize.ShloMosaic.PureOps.Ideal

set_option maxRecDepth 16384
set_option maxHeartbeats 4000000

noncomputable section

namespace Cert.KernelIdeal.KChain

open Cert.KernelIdeal Cert.KernelIdeal.Gen Cert.KernelIdeal.Fill
open Cert.ReferenceIdeal.Read
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## The arrays at the first region's entry -/

/-- The gathered embedding rows, as the program computes them. -/
theorem x_raw : W4 (F := Ideal) m ρ c (Proc.devRef .tc main_v0) = fill50 (m ((c : Thread nD τ).loc main_arg3)) (m ((c : Thread nD τ).loc main_arg0)) := by
  show StableHlo.after hostOps0_3 (StableHlo.after hostOps0_2 (StableHlo.after hostOps0_1 (StableHlo.after hostOps0 (W0 m ρ c)))) (Proc.devRef .tc main_v0) = _
  after_results_simp
  simp only [StableHlo.TRef.toBuf, StableHlo.TRef.ofBuf, cast_eq, W0_arg]

set_option maxRecDepth 200000 in
/-- The plain gather of the embedding rows is the reference's. -/
theorem x_ref : Host.gather gather_S50000x128_S50000x1_S50000x128_1_0_n_n_0_1_1128 (m ((c : Thread nD τ).loc main_arg3)) (wrapCol50k (m ((c : Thread nD τ).loc main_arg0)))
    = val_main_v6 (F := Ideal) (m ((c : Thread nD τ).loc main_arg0)) (m ((c : Thread nD τ).loc main_arg3)) := rfl

/-- The gathered embedding rows are the reference's. -/
theorem k4_x (h : InRange m c) :
    W4 (F := Ideal) m ρ c (Proc.devRef .tc main_v0) = val_main_v6 (F := Ideal) (m ((c : Thread nD τ).loc main_arg0)) (m ((c : Thread nD τ).loc main_arg3)) := by
  rw [x_raw, fill50_eq m c _ h]; exact x_ref m c

set_option maxRecDepth 200000 in
/-- The source row. -/
theorem k4_src : W4 (F := Ideal) m ρ c (Proc.devRef .tc main_v2) = srcRow (m ((c : Thread nD τ).loc main_arg1)) := by
  show StableHlo.after hostOps0_3 (StableHlo.after hostOps0_2 (StableHlo.after hostOps0_1 (StableHlo.after hostOps0 (W0 m ρ c)))) (Proc.devRef .tc main_v2) = _
  after_results_simp
  rfl

set_option maxRecDepth 200000 in
/-- The destination row. -/
theorem k4_dst : W4 (F := Ideal) m ρ c (Proc.devRef .tc main_v4) = dstRow (m ((c : Thread nD τ).loc main_arg1)) := by
  show StableHlo.after hostOps0_3 (StableHlo.after hostOps0_2 (StableHlo.after hostOps0_1 (StableHlo.after hostOps0 (W0 m ρ c)))) (Proc.devRef .tc main_v4) = _
  after_results_simp
  rfl

set_option maxRecDepth 200000 in
/-- The clamped in-degree is the reference's. -/
theorem k4_cnt : W4 (F := Ideal) m ρ c (Proc.devRef .tc main_v10) = val_main_v26 (F := Ideal) (m ((c : Thread nD τ).loc main_arg1)) := by
  show StableHlo.after hostOps0_3 (StableHlo.after hostOps0_2 (StableHlo.after hostOps0_1 (StableHlo.after hostOps0 (W0 m ρ c)))) (Proc.devRef .tc main_v10) = _
  after_results_simp
  rfl

set_option maxRecDepth 200000 in
/-- The neighbour mean of the first layer, as the program computes it. -/
theorem mean_raw :
    W4 (F := Ideal) m ρ c (Proc.devRef .tc main_v16)
      = meanOf3 (fill600 (fill50 (m ((c : Thread nD τ).loc main_arg3)) (m ((c : Thread nD τ).loc main_arg0))) (srcRow (m ((c : Thread nD τ).loc main_arg1)))) (dstRow (m ((c : Thread nD τ).loc main_arg1))) (val_main_v26 (F := Ideal) (m ((c : Thread nD τ).loc main_arg1))) := by
  show StableHlo.after hostOps0_3 (StableHlo.after hostOps0_2 (StableHlo.after hostOps0_1 (StableHlo.after hostOps0 (W0 m ρ c)))) (Proc.devRef .tc main_v16) = _
  after_results_simp
  simp only [StableHlo.TRef.toBuf, StableHlo.TRef.ofBuf, cast_eq, W0_arg]
  rfl

set_option maxRecDepth 200000 in
/-- With plain gathers, the neighbour mean of any node features is the reference's operation on them. -/
theorem mean_ref1 : meanOf3 (Host.gather gather_S50000x128_S600000x1_S600000x128_1_0_n_n_0_1_1128 (val_main_v6 (F := Ideal) (m ((c : Thread nD τ).loc main_arg0)) (m ((c : Thread nD τ).loc main_arg3))) (wrapCol600k (srcRow (m ((c : Thread nD τ).loc main_arg1)))))
      (dstRow (m ((c : Thread nD τ).loc main_arg1))) (val_main_v26 (F := Ideal) (m ((c : Thread nD τ).loc main_arg1)))
    = val_main_v28 (F := Ideal) (m ((c : Thread nD τ).loc main_arg0)) (m ((c : Thread nD τ).loc main_arg1)) (m ((c : Thread nD τ).loc main_arg3)) := rfl

/-- The neighbour mean of the first layer is the reference's. -/
theorem k4_mean (h : InRange m c) :
    W4 (F := Ideal) m ρ c (Proc.devRef .tc main_v16) = val_main_v28 (F := Ideal) (m ((c : Thread nD τ).loc main_arg0)) (m ((c : Thread nD τ).loc main_arg1)) (m ((c : Thread nD τ).loc main_arg3)) := by
  rw [mean_raw, fill50_eq m c _ h, fill600_eq m c _ h, x_ref]; exact mean_ref1 m c

set_option maxRecDepth 200000 in
/-- The first weight matrix, transposed (a change of float format is the identity on extended reals). -/
theorem k4_wl : W4 (F := Ideal) m ρ c (Proc.devRef .tc main_v18) = val_main_v29 (F := Ideal) (m ((c : Thread nD τ).loc main_arg4)) := by
  show StableHlo.after hostOps0_3 (StableHlo.after hostOps0_2 (StableHlo.after hostOps0_1 (StableHlo.after hostOps0 (W0 m ρ c)))) (Proc.devRef .tc main_v18) = _
  after_results_simp
  rfl

set_option maxRecDepth 200000 in
/-- The second weight matrix, transposed. -/
theorem k4_wr : W4 (F := Ideal) m ρ c (Proc.devRef .tc main_v20) = val_main_v31 (F := Ideal) (m ((c : Thread nD τ).loc main_arg5)) := by
  show StableHlo.after hostOps0_3 (StableHlo.after hostOps0_2 (StableHlo.after hostOps0_1 (StableHlo.after hostOps0 (W0 m ρ c)))) (Proc.devRef .tc main_v20) = _
  after_results_simp
  rfl

/-- No operation of the stretch writes an argument array: each is as launched. -/
theorem k4_arg6 : W4 (F := Ideal) m ρ c (Proc.devRef .tc main_arg6) = (m ((c : Thread nD τ).loc main_arg6)) := by
  show StableHlo.after hostOps0_3 (StableHlo.after hostOps0_2 (StableHlo.after hostOps0_1 (StableHlo.after hostOps0 (W0 m ρ c)))) (Proc.devRef .tc main_arg6) = _
  after_results_simp
theorem k4_arg7 : W4 (F := Ideal) m ρ c (Proc.devRef .tc main_arg7) = (m ((c : Thread nD τ).loc main_arg7)) := by
  show StableHlo.after hostOps0_3 (StableHlo.after hostOps0_2 (StableHlo.after hostOps0_1 (StableHlo.after hostOps0 (W0 m ρ c)))) (Proc.devRef .tc main_arg7) = _
  after_results_simp
theorem k4_arg8 : W4 (F := Ideal) m ρ c (Proc.devRef .tc main_arg8) = (m ((c : Thread nD τ).loc main_arg8)) := by
  show StableHlo.after hostOps0_3 (StableHlo.after hostOps0_2 (StableHlo.after hostOps0_1 (StableHlo.after hostOps0 (W0 m ρ c)))) (Proc.devRef .tc main_arg8) = _
  after_results_simp
theorem k4_arg9 : W4 (F := Ideal) m ρ c (Proc.devRef .tc main_arg9) = (m ((c : Thread nD τ).loc main_arg9)) := by
  show StableHlo.after hostOps0_3 (StableHlo.after hostOps0_2 (StableHlo.after hostOps0_1 (StableHlo.after hostOps0 (W0 m ρ c)))) (Proc.devRef .tc main_arg9) = _
  after_results_simp
theorem k4_arg2 : W4 (F := Ideal) m ρ c (Proc.devRef .tc main_arg2) = (m ((c : Thread nD τ).loc main_arg2)) := by
  show StableHlo.after hostOps0_3 (StableHlo.after hostOps0_2 (StableHlo.after hostOps0_1 (StableHlo.after hostOps0 (W0 m ρ c)))) (Proc.devRef .tc main_arg2) = _
  after_results_simp

end Cert.KernelIdeal.KChain

end
-- ==== Proof.SpecMath.lean ====
/-
  The arithmetic of the model, entry by entry, on arrays of extended reals.

  A graph-convolution layer sends a node's feature row to an affine combination of two rows: the mean of its
  neighbours' rows through one weight matrix, its own row through another, plus a bias,
      out (p, o) = ∑ k, mean (p, k) · wl (k, o) + ∑ k, x (p, k) · wr (k, o) + b o,
  the first layer followed by a clamp below at zero. The edge scorer sends two arrays of rows to the row-by-row inner
  product, kept as a one-column array. These are the functions both programs are shown to compute; the weight matrices
  enter already transposed, as both programs transpose them before they multiply.
-/
import Idealize.ShloMosaic.PureOps.Ideal
import Idealize.ShloMosaic.Lib.ValueIdx

noncomputable section

open scoped BigOperators
open Idealize.ShloMosaic Idealize.ShloMosaic.ValueIdx

namespace Cert.Sage

/-- An array of extended reals with `a` rows and `b` columns. -/
abbrev Mat (a b : ℕ) := (⟨2, ![a, b]⟩ : Shape).Idx → EReal
/-- A vector of extended reals of length `a`. -/
abbrev Row (a : ℕ) := (⟨1, ![a]⟩ : Shape).Idx → EReal

/-- One entry of the affine combination: row `p` of `mean` against column `o` of `wl`, row `p` of `x` against
    column `o` of `wr`, and entry `o` of the bias, added in that order. -/
def combAt (mean x : Mat 50000 128) (wl wr : Mat 128 128) (b : Row 128) (p : Fin 50000) (o : Fin 128) : EReal :=
  (∑ k : Fin 128, mean (ix2 p k) * wl (ix2 k o)) + (∑ k : Fin 128, x (ix2 p k) * wr (ix2 k o)) + b (ix1 o)

/-- The affine combination as a whole array. -/
def comb (mean x : Mat 50000 128) (wl wr : Mat 128 128) (b : Row 128) : Mat 50000 128 :=
  fun i => combAt mean x wl wr b (i 0) (i 1)

/-- The affine combination clamped below at the value of the all-zero f32 word. -/
def combRelu (mean x : Mat 50000 128) (wl wr : Mat 128 128) (b : Row 128) : Mat 50000 128 :=
  fun i => max (combAt mean x wl wr b (i 0) (i 1)) (Ideal.ofBits .f32 0x00000000#32)

/-- Row by row, the inner product of two arrays of rows, as a one-column array. -/
def rowDot (f g : Mat 200000 128) : Mat 200000 1 :=
  fun i => ∑ j : Fin 128, f (ix2 (i 0) j) * g (ix2 (i 0) j)

end Cert.Sage

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.CombFinal.lean ====
/-
  What the two affine-combination regions leave in their output arrays, as whole-array functions of the five arrays each
  region finds on entry.

  Each region runs over ten grid points. Point `t` holds rows `5000 t … 5000 t + 4999` of its first two arrays (both
  50000 × 128; the parameters `mean` and `x` of `Cert.Sage.combAt`), its two 128 × 128 matrices (`wl`, `wr`) and its
  length-128 row (`b`) whole, and writes rows `5000 t … 5000 t + 4999` of the output. At row `p`, column `o` of its block
  the body stores
      ∑ k, mean (p, k) · wl (k, o) + ∑ k, x (p, k) · wr (k, o) + b o,
  in the first region clamped below at the value of the zero word: the narrowing of the row blocks to the matrices' format
  is the identity on extended reals, the casts to the same shape are the identity, each product accumulated into zero is
  row against column, and the row `b` repeated down the block reads its entry `o`. Since row `p` of block `t` is row
  `5000 t + p` of the array, what point `t` writes back is block `t` of one function of the whole arrays,
  `Cert.Sage.combRelu` in the first region and `Cert.Sage.comb` in the second; the ten blocks cover the 50000 rows (row `r`
  is in block `r / 5000`), so the output array ends as that function.
-/
import proofs.«409206_j74612171866597_1_alg».proof.Proof.Gen.KernelIdeal.Frame
import proofs.«409206_j74612171866597_1_alg».proof.Proof.SpecMath
import proofs.«409206_j74612171866597_1_alg».proof.Proof.LibPlainMatmul
import Idealize.ShloMosaic.Lib.Pipeline.Value
import Idealize.ShloMosaic.Lib.ValueIdx
import Idealize.ShloMosaic.Lib.ValueLayout

noncomputable section

namespace Cert.KernelIdeal.CombFinal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The matrix product at an index

Both bodies multiply a block of 5000 rows by a whole 128 × 128 matrix under the same dimension numbers: the left
operand's axis 1 against the right operand's axis 0, the left rows and the right columns kept. The four facts below read
the record's two index maps on each axis. -/

theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows with a weight matrix, accumulated into zero, at row `p` and column `o`: row `p`
    against column `o`. -/
theorem matmul_at (A : FVec Ideal S5000x128 .bf16) (B : FVec Ideal S128x128 .bf16) (p : Fin 5000) (o : Fin 128) :
    FloatOps.matmul dot_S5000x128_S128x128_S5000x128_1_0_0_1_n_n none A B (constant (F := Ideal) S5000x128 .f32 0x00000000#32) (ix2 p o)
      = ∑ k : Fin 128, A (ix2 p k) * B (ix2 k o) :=
  Cert.LibPlainMatmul.matmul_zero_apply dot_S5000x128_S128x128_S5000x128_1_0_0_1_n_n none rfl rfl dotL0 dotL1 dotR0 dotR1 A B p o

/-- The bias row, given a leading unit axis and repeated down the 5000 rows, reads its entry `o` in every row. -/
theorem bias_at (b : FVec Ideal S128 .f32) (p : Fin 5000) (o : Fin 128) :
    broadcastTo S5000x128 (shapeCast S1x128 b shapeCasts_S128_S1x128) broadcasts_S1x128_S5000x128 (ix2 p o) = b (ix1 o) := by
  rw [broadcastTo_1b_ab_apply, shapeCast_a_1a_apply]

/-! ## What a body stores, at an index -/

/-- Region 0's body at row `p`, column `o` of its block: the two products, the bias, and the clamp at the zero word. -/
theorem pay0_at (x0 x1 : Vec Ideal S5000x128 .f32) (w2 w3 : Vec Ideal S128x128 .bf16) (b : Vec Ideal S128 .f32) (p : Fin 5000) (o : Fin 128) :
    k0_pay1 x0 x1 w2 w3 b (ix2 p o)
      = max ((∑ k : Fin 128, x0 (ix2 p k) * w2 (ix2 k o)) + (∑ k : Fin 128, x1 (ix2 p k) * w3 (ix2 k o)) + b (ix1 o)) (Ideal.ofBits .f32 0x00000000#32) := by
  unfold k0_pay1
  rw [maximumf_apply, addf_apply, addf_apply, broadcast_apply, bias_at,
    shapeCast_self x0, shapeCast_self x1, shapeCast_self w2, shapeCast_self w3]
  refine congrArg₂ max (congrArg₂ (· + ·) (congrArg₂ (· + ·) ?_ ?_) rfl) rfl
  · exact matmul_at _ _ p o
  · exact matmul_at _ _ p o

/-- Region 1's body at row `p`, column `o` of its block: the two products and the bias. -/
theorem pay1_at (x0 x1 : Vec Ideal S5000x128 .f32) (w2 w3 : Vec Ideal S128x128 .bf16) (b : Vec Ideal S128 .f32) (p : Fin 5000) (o : Fin 128) :
    k1_pay1 x0 x1 w2 w3 b (ix2 p o)
      = (∑ k : Fin 128, x0 (ix2 p k) * w2 (ix2 k o)) + (∑ k : Fin 128, x1 (ix2 p k) * w3 (ix2 k o)) + b (ix1 o) := by
  unfold k1_pay1
  rw [addf_apply, addf_apply, bias_at,
    shapeCast_self x0, shapeCast_self x1, shapeCast_self w2, shapeCast_self w3]
  refine congrArg₂ (· + ·) (congrArg₂ (· + ·) ?_ ?_) rfl
  · exact matmul_at _ _ p o
  · exact matmul_at _ _ p o

/-! ## A block of the output is the block of the whole-array function -/

theorem zero2 : (![0, 0] : Fin 2 → Nat) = fun _ => 0 := funext fun a => by fin_cases a <;> rfl
theorem zero1 : (![0] : Fin 1 → Nat) = fun _ => 0 := funext fun a => by fin_cases a; rfl

/-- A function on a block's indices is determined by its values at the pairs (row, column). -/
theorem block_ext {α : Type} (f g : S5000x128.Idx → α) (h : ∀ (p : Fin 5000) (o : Fin 128), f (ix2 p o) = g (ix2 p o)) : f = g :=
  funext fun j => by rw [eq_ix2 j]; exact h _ _

/-- When the two row blocks hold rows `r` of the two arrays where the block has its row `p`, and the weights and the bias are
    held whole, region 0's body at `(p, o)` is the clamped affine combination at `(r, o)`. -/
theorem combRelu_block (X0 X1 : Cert.Sage.Mat 50000 128) (W2 W3 : Cert.Sage.Mat 128 128) (B : Cert.Sage.Row 128)
    (x0 x1 : Vec Ideal S5000x128 .f32) (w2 w3 : Vec Ideal S128x128 .bf16) (b : Vec Ideal S128 .f32)
    (p : Fin 5000) (o : Fin 128) (r : Fin 50000)
    (h0 : ∀ k : Fin 128, x0 (ix2 p k) = X0 (ix2 r k)) (h1 : ∀ k : Fin 128, x1 (ix2 p k) = X1 (ix2 r k))
    (h2 : ∀ k : Fin 128, w2 (ix2 k o) = W2 (ix2 k o)) (h3 : ∀ k : Fin 128, w3 (ix2 k o) = W3 (ix2 k o))
    (h4 : b (ix1 o) = B (ix1 o)) :
    k0_pay1 x0 x1 w2 w3 b (ix2 p o) = Cert.Sage.combRelu X0 X1 W2 W3 B (ix2 r o) := by
  rw [pay0_at]
  show _ = max (Cert.Sage.combAt X0 X1 W2 W3 B r o) _
  unfold Cert.Sage.combAt
  simp only [h0, h1, h2, h3, h4]

/-- The same for region 1's body, with no clamp. -/
theorem comb_block (X0 X1 : Cert.Sage.Mat 50000 128) (W2 W3 : Cert.Sage.Mat 128 128) (B : Cert.Sage.Row 128)
    (x0 x1 : Vec Ideal S5000x128 .f32) (w2 w3 : Vec Ideal S128x128 .bf16) (b : Vec Ideal S128 .f32)
    (p : Fin 5000) (o : Fin 128) (r : Fin 50000)
    (h0 : ∀ k : Fin 128, x0 (ix2 p k) = X0 (ix2 r k)) (h1 : ∀ k : Fin 128, x1 (ix2 p k) = X1 (ix2 r k))
    (h2 : ∀ k : Fin 128, w2 (ix2 k o) = W2 (ix2 k o)) (h3 : ∀ k : Fin 128, w3 (ix2 k o) = W3 (ix2 k o))
    (h4 : b (ix1 o) = B (ix1 o)) :
    k1_pay1 x0 x1 w2 w3 b (ix2 p o) = Cert.Sage.comb X0 X1 W2 W3 B (ix2 r o) := by
  rw [pay1_at]
  show _ = Cert.Sage.combAt X0 X1 W2 W3 B r o
  unfold Cert.Sage.combAt
  simp only [h0, h1, h2, h3, h4]

variable (V : (c : Dev nD) → (b : Ref sig .tc) → Buf (Elt Ideal) ((c : Thread nD τ).loc b))

/-! ## Region 0: the clamped combination -/

/-- The index maps over the ten points: the two row-block inputs and the output sit at block `(t, 0)`, the weights and the
    bias at block zero. -/
theorem idx_facts0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- Row `p` of input 0's block at point `t` is row `5000 t + p` of its array. -/
theorem rows0_0 (c : Dev nD) (t : Fin cfg0.N) (p : Fin 5000) (k : Fin 128) (hr : t.val * 5000 + p.val < 50000) :
    iblk0 V c 0 t (ix2 p k) = V c (Pipeline.arrRef spec0 0) (ix2 (⟨t.val * 5000 + p.val, hr⟩ : Fin 50000) k) := by
  have e := idx_facts0 t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of input 1's block at point `t` is row `5000 t + p` of its array. -/
theorem rows0_1 (c : Dev nD) (t : Fin cfg0.N) (p : Fin 5000) (k : Fin 128) (hr : t.val * 5000 + p.val < 50000) :
    iblk0 V c 1 t (ix2 p k) = V c (Pipeline.arrRef spec0 1) (ix2 (⟨t.val * 5000 + p.val, hr⟩ : Fin 50000) k) := by
  have e := idx_facts0 t
  show V c (Pipeline.arrRef spec0 1) (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Weight matrix 2 is staged whole: its block at any point is the array. -/
theorem whole0_2 (c : Dev nD) (t : Fin cfg0.N) (k o : Fin 128) :
    iblk0 V c 2 t (ix2 k o) = V c (Pipeline.arrRef spec0 2) (ix2 k o) := by
  have e := idx_facts0 t
  show V c (Pipeline.arrRef spec0 2) (((cfg0.win 2).blk t).view.emb (ix2 k o)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * o.val = o.val; omega

/-- Weight matrix 3 is staged whole: its block at any point is the array. -/
theorem whole0_3 (c : Dev nD) (t : Fin cfg0.N) (k o : Fin 128) :
    iblk0 V c 3 t (ix2 k o) = V c (Pipeline.arrRef spec0 3) (ix2 k o) := by
  have e := idx_facts0 t
  show V c (Pipeline.arrRef spec0 3) (((cfg0.win 3).blk t).view.emb (ix2 k o)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * o.val = o.val; omega

/-- The bias is staged whole: its block at any point is the array. -/
theorem whole0_4 (c : Dev nD) (t : Fin cfg0.N) (o : Fin 128) :
    iblk0 V c 4 t (ix1 o) = V c (Pipeline.arrRef spec0 4) (ix1 o) := by
  have e := idx_facts0 t
  show V c (Pipeline.arrRef spec0 4) (((cfg0.win 4).blk t).view.emb (ix1 o)) = _
  refine congrArg _ (funext fun a => Fin.ext ?_)
  match a with
  | ⟨0, _⟩ => show win0_4.index t (0 : Fin 1) * 128 + 1 * o.val = o.val; omega

/-- Entry `(p, o)` of the output's block at point `t` is entry `(5000 t + p, o)` of its array. -/
theorem out0_emb (t : Fin cfg0.N) (p : Fin 5000) (o : Fin 128) (hr : t.val * 5000 + p.val < 50000) :
    ((cfg0.win 5).blk t).view.emb (ix2 p o) = ix2 (⟨t.val * 5000 + p.val, hr⟩ : Fin 50000) o := by
  have e := idx_facts0 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * o.val = o.val; omega

/-- What point `t` writes back is block `t` of the clamped affine combination of the arrays as the region finds them. -/
theorem flushed0_eq (c : Dev nD) (t : Fin cfg0.N) :
    (dat0 (F := Ideal) V c).flushed 5 t = ((cfg0.win 5).blk t).view.read (Elt Ideal)
      (Cert.Sage.combRelu (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  refine block_ext _ _ fun p o => ?_
  have ht : t.val < 10 := lt_of_lt_of_eq t.isLt N_0
  have hp : p.val < 5000 := p.isLt
  have hr : t.val * 5000 + p.val < 50000 := by omega
  show k0_pay1 (iblk0 V c 0 t) (iblk0 V c 1 t) (iblk0 V c 2 t) (iblk0 V c 3 t) (iblk0 V c 4 t) (ix2 p o)
    = Cert.Sage.combRelu _ _ _ _ _ (((cfg0.win 5).blk t).view.emb (ix2 p o))
  rw [out0_emb t p o hr]
  exact combRelu_block _ _ _ _ _ _ _ _ _ _ p o ⟨t.val * 5000 + p.val, hr⟩
    (fun k => rows0_0 V c t p k hr) (fun k => rows0_1 V c t p k hr)
    (fun k => whole0_2 V c t k o) (fun k => whole0_3 V c t k o) (whole0_4 V c t o)

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- The ten blocks cover the array: row `r` lies in the block of point `r / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_5 _, ?_⟩
  rw [mem_blk0]
  have e := idx_facts0 ⟨(i 0).val / 5000, hN⟩
  have htv : (⟨(i 0).val / 5000, hN⟩ : Fin cfg0.N).val = (i 0).val / 5000 := rfl
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    omega

/-- After region 0 the output array is the clamped affine combination of the five arrays the region found. -/
theorem final0 (c : Dev nD) : (dat0 (F := Ideal) V c).arrAt 5 cfg0.N = Cert.Sage.combRelu (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0_eq V c t) cover0

/-! ## Region 1: the combination with no clamp -/

/-- The index maps over the ten points: the two row-block inputs and the output sit at block `(t, 0)`, the weights and the
    bias at block zero. -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Row `p` of input 0's block at point `t` is row `5000 t + p` of its array. -/
theorem rows1_0 (c : Dev nD) (t : Fin cfg1.N) (p : Fin 5000) (k : Fin 128) (hr : t.val * 5000 + p.val < 50000) :
    iblk1 V c 0 t (ix2 p k) = V c (Pipeline.arrRef spec1 0) (ix2 (⟨t.val * 5000 + p.val, hr⟩ : Fin 50000) k) := by
  have e := idx_facts1 t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of input 1's block at point `t` is row `5000 t + p` of its array. -/
theorem rows1_1 (c : Dev nD) (t : Fin cfg1.N) (p : Fin 5000) (k : Fin 128) (hr : t.val * 5000 + p.val < 50000) :
    iblk1 V c 1 t (ix2 p k) = V c (Pipeline.arrRef spec1 1) (ix2 (⟨t.val * 5000 + p.val, hr⟩ : Fin 50000) k) := by
  have e := idx_facts1 t
  show V c (Pipeline.arrRef spec1 1) (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Weight matrix 2 is staged whole: its block at any point is the array. -/
theorem whole1_2 (c : Dev nD) (t : Fin cfg1.N) (k o : Fin 128) :
    iblk1 V c 2 t (ix2 k o) = V c (Pipeline.arrRef spec1 2) (ix2 k o) := by
  have e := idx_facts1 t
  show V c (Pipeline.arrRef spec1 2) (((cfg1.win 2).blk t).view.emb (ix2 k o)) = _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * o.val = o.val; omega

/-- Weight matrix 3 is staged whole: its block at any point is the array. -/
theorem whole1_3 (c : Dev nD) (t : Fin cfg1.N) (k o : Fin 128) :
    iblk1 V c 3 t (ix2 k o) = V c (Pipeline.arrRef spec1 3) (ix2 k o) := by
  have e := idx_facts1 t
  show V c (Pipeline.arrRef spec1 3) (((cfg1.win 3).blk t).view.emb (ix2 k o)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * o.val = o.val; omega

/-- The bias is staged whole: its block at any point is the array. -/
theorem whole1_4 (c : Dev nD) (t : Fin cfg1.N) (o : Fin 128) :
    iblk1 V c 4 t (ix1 o) = V c (Pipeline.arrRef spec1 4) (ix1 o) := by
  have e := idx_facts1 t
  show V c (Pipeline.arrRef spec1 4) (((cfg1.win 4).blk t).view.emb (ix1 o)) = _
  refine congrArg _ (funext fun a => Fin.ext ?_)
  match a with
  | ⟨0, _⟩ => show win1_4.index t (0 : Fin 1) * 128 + 1 * o.val = o.val; omega

/-- Entry `(p, o)` of the output's block at point `t` is entry `(5000 t + p, o)` of its array. -/
theorem out1_emb (t : Fin cfg1.N) (p : Fin 5000) (o : Fin 128) (hr : t.val * 5000 + p.val < 50000) :
    ((cfg1.win 5).blk t).view.emb (ix2 p o) = ix2 (⟨t.val * 5000 + p.val, hr⟩ : Fin 50000) o := by
  have e := idx_facts1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * o.val = o.val; omega

/-- What point `t` writes back is block `t` of the affine combination of the arrays as the region finds them. -/
theorem flushed1_eq (c : Dev nD) (t : Fin cfg1.N) :
    (dat1 (F := Ideal) V c).flushed 5 t = ((cfg1.win 5).blk t).view.read (Elt Ideal)
      (Cert.Sage.comb (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  refine block_ext _ _ fun p o => ?_
  have ht : t.val < 10 := lt_of_lt_of_eq t.isLt N_1
  have hp : p.val < 5000 := p.isLt
  have hr : t.val * 5000 + p.val < 50000 := by omega
  show k1_pay1 (iblk1 V c 0 t) (iblk1 V c 1 t) (iblk1 V c 2 t) (iblk1 V c 3 t) (iblk1 V c 4 t) (ix2 p o)
    = Cert.Sage.comb _ _ _ _ _ (((cfg1.win 5).blk t).view.emb (ix2 p o))
  rw [out1_emb t p o hr]
  exact comb_block _ _ _ _ _ _ _ _ _ _ p o ⟨t.val * 5000 + p.val, hr⟩
    (fun k => rows1_0 V c t p k hr) (fun k => rows1_1 V c t p k hr)
    (fun k => whole1_2 V c t k o) (fun k => whole1_3 V c t k o) (whole1_4 V c t o)

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v32).slice (win1_5.rect t)).set ↔ _
  rw [View.set_slice_whole, Rect.mem_set_unit]
  exact Iff.rfl

/-- The ten blocks cover the array: row `r` lies in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  refine ⟨⟨(i 0).val / 5000, hN⟩, flush1_5 _, ?_⟩
  rw [mem_blk1]
  have e := idx_facts1 ⟨(i 0).val / 5000, hN⟩
  have htv : (⟨(i 0).val / 5000, hN⟩ : Fin cfg1.N).val = (i 0).val / 5000 := rfl
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    omega

/-- After region 1 the output array is the affine combination of the five arrays the region found. -/
theorem final1 (c : Dev nD) : (dat1 (F := Ideal) V c).arrAt 5 cfg1.N = Cert.Sage.comb (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) cover1

end Cert.KernelIdeal.CombFinal

end
-- ==== Proof.RefPoint.lean ====
/-
  Three stages of the reference program, read entry by entry on extended reals.

  The reference computes each graph-convolution layer as two matrix products, their sum, and the sum with the
  broadcast bias; the first layer ends in the maximum with a broadcast zero. Entry (p, o) of a matrix product is the
  sum over the contracted axis k of the left operand at (p, k) times the right operand at (k, o); entry (p, o) of the
  bias broadcast is the bias at o. Put together, entry (p, o) of a layer is the affine combination
      ∑ k, mean (p, k) · wl (k, o) + ∑ k, x (p, k) · wr (k, o) + b o
  of the specification, clamped below at zero for the first layer. The edge score is the sum along a row of the
  entrywise product of two arrays of rows, starting from zero: the row-by-row inner product.
-/
import proofs.«409206_j74612171866597_1_alg».proof.Proof.Gen.ReferenceIdeal.Read
import proofs.«409206_j74612171866597_1_alg».proof.Proof.SpecMath

noncomputable section

open scoped BigOperators

namespace Cert.ReferenceIdeal.RefPoint

open Cert.ReferenceIdeal Cert.ReferenceIdeal.Read Idealize.ShloMosaic Idealize.ShloMosaic.ValueIdx

/-! ### Where each operand is read

The index functions of the matrix products, of the bias broadcasts and of the row sum, at an index given by its
coordinates. -/

/-- The left operand of a product is read at row p, column k. -/
theorem lidx30 (p : Fin 50000) (o k : Fin 128) : lidx_main_v30 (ix2 p o) k = ix2 p k :=
  funext fun a => Fin.ext (by match a with | ⟨0, _⟩ => rfl | ⟨1, _⟩ => rfl)
/-- The right operand of a product is read at row k, column o. -/
theorem ridx30 (p : Fin 50000) (o k : Fin 128) : ridx_main_v30 (ix2 p o) k = ix2 k o :=
  funext fun a => Fin.ext (by match a with | ⟨0, _⟩ => rfl | ⟨1, _⟩ => rfl)
theorem lidx32 (p : Fin 50000) (o k : Fin 128) : lidx_main_v32 (ix2 p o) k = ix2 p k :=
  funext fun a => Fin.ext (by match a with | ⟨0, _⟩ => rfl | ⟨1, _⟩ => rfl)
theorem ridx32 (p : Fin 50000) (o k : Fin 128) : ridx_main_v32 (ix2 p o) k = ix2 k o :=
  funext fun a => Fin.ext (by match a with | ⟨0, _⟩ => rfl | ⟨1, _⟩ => rfl)
theorem lidx57 (p : Fin 50000) (o k : Fin 128) : lidx_main_v57 (ix2 p o) k = ix2 p k :=
  funext fun a => Fin.ext (by match a with | ⟨0, _⟩ => rfl | ⟨1, _⟩ => rfl)
theorem ridx57 (p : Fin 50000) (o k : Fin 128) : ridx_main_v57 (ix2 p o) k = ix2 k o :=
  funext fun a => Fin.ext (by match a with | ⟨0, _⟩ => rfl | ⟨1, _⟩ => rfl)
theorem lidx59 (p : Fin 50000) (o k : Fin 128) : lidx_main_v59 (ix2 p o) k = ix2 p k :=
  funext fun a => Fin.ext (by match a with | ⟨0, _⟩ => rfl | ⟨1, _⟩ => rfl)
theorem ridx59 (p : Fin 50000) (o k : Fin 128) : ridx_main_v59 (ix2 p o) k = ix2 k o :=
  funext fun a => Fin.ext (by match a with | ⟨0, _⟩ => rfl | ⟨1, _⟩ => rfl)
/-- The bias, broadcast first to one row and then to every row, is read at the column. -/
theorem bidx35 (p : Fin 50000) (o : Fin 128) : idx_main_v34 (idx_main_v35 (ix2 p o)) = ix1 o :=
  funext fun a => Fin.ext (by match a with | ⟨0, _⟩ => rfl)
theorem bidx62 (p : Fin 50000) (o : Fin 128) : idx_main_v61 (idx_main_v62 (ix2 p o)) = ix1 o :=
  funext fun a => Fin.ext (by match a with | ⟨0, _⟩ => rfl)
/-- The row sum reads row r at column k. -/
theorem sidx83 (r : Fin 200000) (k : Fin 128) : idx_main_v83 (ix1 r) k = ix2 r k :=
  funext fun a => Fin.ext (by match a with | ⟨0, _⟩ => rfl | ⟨1, _⟩ => rfl)

/-! ### The three stages -/

/-- The first layer: the affine combination of the neighbour mean and the gathered rows through the transposed
    weights, plus the bias, clamped below at zero. -/
theorem layer1 (x0 : (⟨S50000, .i32⟩ : BufTy).Contents (Elt Ideal)) (x1 : (⟨S2x600000, .i32⟩ : BufTy).Contents (Elt Ideal)) (x3 : (⟨S50000x128, .f32⟩ : BufTy).Contents (Elt Ideal)) (x4 x5 : (⟨S128x128, .f32⟩ : BufTy).Contents (Elt Ideal)) (x6 : (⟨S128, .f32⟩ : BufTy).Contents (Elt Ideal)) :
    val_main_v37 (F := Ideal) x0 x1 x3 x4 x5 x6 = Cert.Sage.combRelu (val_main_v28 (F := Ideal) x0 x1 x3) (val_main_v6 (F := Ideal) x0 x3) (val_main_v29 (F := Ideal) x4) (val_main_v31 (F := Ideal) x5) x6 := by
  funext i
  obtain ⟨p, o, rfl⟩ : ∃ (p : Fin 50000) (o : Fin 128), i = ix2 p o := ⟨i 0, i 1, eq_ix2 i⟩
  rw [val_main_v37_apply, val_main_v36_apply, val_main_v33_apply, val_main_v30_apply, val_main_v32_apply,
    val_main_v35_apply, val_main_v34_apply, val_main_call0_v0_apply, val_main_call0_cst_apply]
  simp only [lidx30, ridx30, lidx32, ridx32, bidx35, Ideal.addf_def, Ideal.maximumf_def, Ideal.ofBits_def]
  unfold Cert.Sage.combRelu Cert.Sage.combAt
  rfl

/-- The second layer: the same affine combination on the second neighbour mean and the first layer's result,
    with no clamp. -/
theorem layer2 (x0 : (⟨S50000, .i32⟩ : BufTy).Contents (Elt Ideal)) (x1 : (⟨S2x600000, .i32⟩ : BufTy).Contents (Elt Ideal)) (x3 : (⟨S50000x128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) :
    val_main_v63 (F := Ideal) x0 x1 x3 x4 x5 x6 x7 x8 x9 = Cert.Sage.comb (val_main_v55 (F := Ideal) x0 x1 x3 x4 x5 x6) (val_main_v37 (F := Ideal) x0 x1 x3 x4 x5 x6) (val_main_v56 (F := Ideal) x7) (val_main_v58 (F := Ideal) x8) x9 := by
  funext i
  obtain ⟨p, o, rfl⟩ : ∃ (p : Fin 50000) (o : Fin 128), i = ix2 p o := ⟨i 0, i 1, eq_ix2 i⟩
  rw [val_main_v63_apply, val_main_v60_apply, val_main_v57_apply, val_main_v59_apply,
    val_main_v62_apply, val_main_v61_apply]
  simp only [lidx57, ridx57, lidx59, ridx59, bidx62, Ideal.addf_def]
  unfold Cert.Sage.comb Cert.Sage.combAt
  rfl

/-- The edge score: from zero, the sum along row i of the entrywise product of the two gathered arrays. -/
theorem score (x0 : (⟨S50000, .i32⟩ : BufTy).Contents (Elt Ideal)) (x1 : (⟨S2x600000, .i32⟩ : BufTy).Contents (Elt Ideal)) (x2 : (⟨S2x200000, .i32⟩ : BufTy).Contents (Elt Ideal)) (x3 : (⟨S50000x128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (i : S200000.Idx) :
    val_main_v83 (F := Ideal) x0 x1 x2 x3 x4 x5 x6 x7 x8 x9 i = Cert.Sage.rowDot (val_main_v72 (F := Ideal) x0 x1 x2 x3 x4 x5 x6 x7 x8 x9) (val_main_v81 (F := Ideal) x0 x1 x2 x3 x4 x5 x6 x7 x8 x9) (ix2 (i 0) (0 : Fin 1)) := by
  obtain ⟨r, rfl⟩ : ∃ r : Fin 200000, i = ix1 r := ⟨i 0, eq_ix1 i⟩
  rw [val_main_v83_apply, val_main_cst_16_apply]
  simp only [sidx83, val_main_v82_apply, Ideal.mulf_def, Ideal.ofBits_def, Ideal.ofBits_zero_f32, zero_add]
  unfold Cert.Sage.rowDot
  rfl

end Cert.ReferenceIdeal.RefPoint

end
-- ==== Proof.KChain1.lean ====
/-
  The first layer's region, and the host stretch before the second layer's region.

  The first region leaves in its output array the clamped affine combination of its five input arrays; those are the
  reference's neighbour mean, node features, transposed weights and bias, so the output is the reference's first-layer
  features. The stretch after it repeats the first stretch's operations on those features: the source rows gathered,
  summed per destination, divided by the same in-degree, and the second pair of weight matrices transposed.
-/
import proofs.«409206_j74612171866597_1_alg».proof.Proof.Gen.KernelIdeal.Frame
import proofs.«409206_j74612171866597_1_alg».proof.Proof.Gen.ReferenceIdeal.Read
import proofs.«409206_j74612171866597_1_alg».proof.Proof.Fill
import proofs.«409206_j74612171866597_1_alg».proof.Proof.Decode
import proofs.«409206_j74612171866597_1_alg».proof.Defs
import proofs.«409206_j74612171866597_1_alg».proof.Proof.KChain0
import proofs.«409206_j74612171866597_1_alg».proof.Proof.CombFinal
import proofs.«409206_j74612171866597_1_alg».proof.Proof.RefPoint
import Idealize.ShloMosaic.Lib.StableHlo.Run
import Idealize.ShloMosaic.PureOps.Ideal

set_option maxRecDepth 16384
set_option maxHeartbeats 4000000

noncomputable section

namespace Cert.KernelIdeal.KChain

open Cert.KernelIdeal Cert.KernelIdeal.Gen Cert.KernelIdeal.Fill
open Cert.ReferenceIdeal.Read
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## The first region's exit -/

set_option maxRecDepth 200000 in
/-- The first layer's output array holds the reference's first-layer features. -/
theorem k5_h (h : InRange m c) :
    W5 (F := Ideal) m ρ c (Proc.devRef .tc main_v21) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e0 : V4 (F := Ideal) m ρ c (Pipeline.arrRef spec0 0) = val_main_v28 (F := Ideal) (m ((c : Thread nD τ).loc main_arg0)) (m ((c : Thread nD τ).loc main_arg1)) (m ((c : Thread nD τ).loc main_arg3)) := k4_mean m ρ c h
  have e1 : V4 (F := Ideal) m ρ c (Pipeline.arrRef spec0 1) = val_main_v6 (F := Ideal) (m ((c : Thread nD τ).loc main_arg0)) (m ((c : Thread nD τ).loc main_arg3)) := k4_x m ρ c h
  have e2 : V4 (F := Ideal) m ρ c (Pipeline.arrRef spec0 2) = val_main_v29 (F := Ideal) (m ((c : Thread nD τ).loc main_arg4)) := k4_wl m ρ c
  have e3 : V4 (F := Ideal) m ρ c (Pipeline.arrRef spec0 3) = val_main_v31 (F := Ideal) (m ((c : Thread nD τ).loc main_arg5)) := k4_wr m ρ c
  have e4 : V4 (F := Ideal) m ρ c (Pipeline.arrRef spec0 4) = (m ((c : Thread nD τ).loc main_arg6)) := k4_arg6 m ρ c
  have f := Cert.KernelIdeal.CombFinal.final0 (V4 (F := Ideal) m ρ) c
  rw [e0, e1, e2, e3, e4] at f
  exact ((W5_arr (F := Ideal) m ρ c 5).trans f).trans (Cert.ReferenceIdeal.RefPoint.layer1 _ _ _ _ _ _).symm

/-! ## The arrays at the second region's entry -/

set_option maxRecDepth 200000 in
/-- The neighbour mean of the second layer, as the program computes it from the buffers the first region left. -/
theorem mean2_raw :
    W7 (F := Ideal) m ρ c (Proc.devRef .tc main_v27)
      = meanOf3 (fill600 (W5 (F := Ideal) m ρ c (Proc.devRef .tc main_v21)) (W5 (F := Ideal) m ρ c (Proc.devRef .tc main_v2)))
          (W5 (F := Ideal) m ρ c (Proc.devRef .tc main_v4)) (W5 (F := Ideal) m ρ c (Proc.devRef .tc main_v10)) := by
  show StableHlo.after hostOps1_1 (StableHlo.after hostOps1 (W5 m ρ c)) (Proc.devRef .tc main_v27) = _
  after_results_simp
  simp only [StableHlo.TRef.toBuf, StableHlo.TRef.ofBuf, cast_eq]

set_option maxRecDepth 200000 in
/-- With plain gathers, the neighbour mean of the first-layer features is the reference's. -/
theorem mean_ref2 : meanOf3 (Host.gather gather_S50000x128_S600000x1_S600000x128_1_0_n_n_0_1_1128 (val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (wrapCol600k (srcRow (m ((c : Thread nD τ).loc main_arg1)))))
      (dstRow (m ((c : Thread nD τ).loc main_arg1))) (val_main_v26 (F := Ideal) (m ((c : Thread nD τ).loc main_arg1)))
    = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := rfl

/-- The neighbour mean of the second layer is the reference's. -/
theorem k7_mean (h : InRange m c) :
    W7 (F := Ideal) m ρ c (Proc.devRef .tc main_v27) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [mean2_raw, W5_of_ne (F := Ideal) m ρ c main_v2 (by decide), W5_of_ne (F := Ideal) m ρ c main_v4 (by decide),
    W5_of_ne (F := Ideal) m ρ c main_v10 (by decide), k5_h m ρ c h, k4_src, k4_dst, k4_cnt, fill600_eq m c _ h]
  exact mean_ref2 m c

/-- The first-layer features are still in their array. -/
theorem k7_h (h : InRange m c) :
    W7 (F := Ideal) m ρ c (Proc.devRef .tc main_v21) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1_1 (StableHlo.after hostOps1 (W5 m ρ c)) (Proc.devRef .tc main_v21) = _
  after_results_simp
  exact k5_h m ρ c h

set_option maxRecDepth 200000 in
/-- The third weight matrix, transposed. -/
theorem k7_wl : W7 (F := Ideal) m ρ c (Proc.devRef .tc main_v29) = val_main_v56 (F := Ideal) (m ((c : Thread nD τ).loc main_arg7)) := by
  show StableHlo.after hostOps1_1 (StableHlo.after hostOps1 (W5 m ρ c)) (Proc.devRef .tc main_v29) = _
  after_results_simp
  rw [W5_of_ne (F := Ideal) m ρ c main_arg7 (by decide), k4_arg7]
  rfl

set_option maxRecDepth 200000 in
/-- The fourth weight matrix, transposed. -/
theorem k7_wr : W7 (F := Ideal) m ρ c (Proc.devRef .tc main_v31) = val_main_v58 (F := Ideal) (m ((c : Thread nD τ).loc main_arg8)) := by
  show StableHlo.after hostOps1_1 (StableHlo.after hostOps1 (W5 m ρ c)) (Proc.devRef .tc main_v31) = _
  after_results_simp
  rw [W5_of_ne (F := Ideal) m ρ c main_arg8 (by decide), k4_arg8]
  rfl

/-- The second bias is as launched. -/
theorem k7_arg9 : W7 (F := Ideal) m ρ c (Proc.devRef .tc main_arg9) = (m ((c : Thread nD τ).loc main_arg9)) := by
  show StableHlo.after hostOps1_1 (StableHlo.after hostOps1 (W5 m ρ c)) (Proc.devRef .tc main_arg9) = _
  after_results_simp
  rw [W5_of_ne (F := Ideal) m ρ c main_arg9 (by decide), k4_arg9]

/-- The pair array is as launched. -/
theorem k7_arg2 : W7 (F := Ideal) m ρ c (Proc.devRef .tc main_arg2) = (m ((c : Thread nD τ).loc main_arg2)) := by
  show StableHlo.after hostOps1_1 (StableHlo.after hostOps1 (W5 m ρ c)) (Proc.devRef .tc main_arg2) = _
  after_results_simp
  rw [W5_of_ne (F := Ideal) m ρ c main_arg2 (by decide), k4_arg2]

end Cert.KernelIdeal.KChain

end
-- ==== Proof.KChain2.lean ====
/-
  The second layer's region, and the host stretch before the scoring region.

  The second region leaves the affine combination (no clamp) of the second neighbour mean, the first-layer features,
  the second pair of transposed weights and the second bias: the reference's second-layer features. The stretch after
  it slices the pair array into its two rows and gathers the features at each.
-/
import proofs.«409206_j74612171866597_1_alg».proof.Proof.Gen.KernelIdeal.Frame
import proofs.«409206_j74612171866597_1_alg».proof.Proof.Gen.ReferenceIdeal.Read
import proofs.«409206_j74612171866597_1_alg».proof.Proof.Fill
import proofs.«409206_j74612171866597_1_alg».proof.Proof.Decode
import proofs.«409206_j74612171866597_1_alg».proof.Defs
import proofs.«409206_j74612171866597_1_alg».proof.Proof.KChain1
import Idealize.ShloMosaic.Lib.StableHlo.Run
import Idealize.ShloMosaic.PureOps.Ideal

set_option maxRecDepth 16384
set_option maxHeartbeats 4000000

noncomputable section

namespace Cert.KernelIdeal.KChain

open Cert.KernelIdeal Cert.KernelIdeal.Gen Cert.KernelIdeal.Fill
open Cert.ReferenceIdeal.Read
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-! ## The second region's exit -/

set_option maxRecDepth 200000 in
/-- The second layer's output array holds the reference's second-layer features. -/
theorem k8_h (h : InRange m c) :
    W8 (F := Ideal) m ρ c (Proc.devRef .tc main_v32) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e0 : V7 (F := Ideal) m ρ c (Pipeline.arrRef spec1 0) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := k7_mean m ρ c h
  have e1 : V7 (F := Ideal) m ρ c (Pipeline.arrRef spec1 1) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := k7_h m ρ c h
  have e2 : V7 (F := Ideal) m ρ c (Pipeline.arrRef spec1 2) = val_main_v56 (F := Ideal) (m ((c : Thread nD τ).loc main_arg7)) := k7_wl m ρ c
  have e3 : V7 (F := Ideal) m ρ c (Pipeline.arrRef spec1 3) = val_main_v58 (F := Ideal) (m ((c : Thread nD τ).loc main_arg8)) := k7_wr m ρ c
  have e4 : V7 (F := Ideal) m ρ c (Pipeline.arrRef spec1 4) = (m ((c : Thread nD τ).loc main_arg9)) := k7_arg9 m ρ c
  have f := Cert.KernelIdeal.CombFinal.final1 (V7 (F := Ideal) m ρ) c
  rw [e0, e1, e2, e3, e4] at f
  exact ((W8_arr (F := Ideal) m ρ c 5).trans f).trans (Cert.ReferenceIdeal.RefPoint.layer2 _ _ _ _ _ _ _ _ _).symm

/-- The pair array is as launched. -/
theorem k8_arg2 : W8 (F := Ideal) m ρ c (Proc.devRef .tc main_arg2) = (m ((c : Thread nD τ).loc main_arg2)) := by
  rw [W8_of_ne (F := Ideal) m ρ c main_arg2 (by decide)]; exact k7_arg2 m ρ c

/-! ## The arrays at the scoring region's entry -/

set_option maxRecDepth 200000 in
/-- The features gathered at the pairs' first ends, as the program computes them. -/
theorem f1_raw :
    W12 (F := Ideal) m ρ c (Proc.devRef .tc main_v35)
      = fill200 (W8 (F := Ideal) m ρ c (Proc.devRef .tc main_v32)) (labRow0 (W8 (F := Ideal) m ρ c (Proc.devRef .tc main_arg2))) := by
  show StableHlo.after hostOps2_3 (StableHlo.after hostOps2_2 (StableHlo.after hostOps2_1 (StableHlo.after hostOps2 (W8 m ρ c)))) (Proc.devRef .tc main_v35) = _
  after_results_simp
  simp only [StableHlo.TRef.toBuf, StableHlo.TRef.ofBuf, cast_eq]
  rfl

set_option maxRecDepth 200000 in
/-- The features gathered at the pairs' second ends, as the program computes them. -/
theorem f2_raw :
    W12 (F := Ideal) m ρ c (Proc.devRef .tc main_v38)
      = fill200 (W8 (F := Ideal) m ρ c (Proc.devRef .tc main_v32)) (labRow1 (W8 (F := Ideal) m ρ c (Proc.devRef .tc main_arg2))) := by
  show StableHlo.after hostOps2_3 (StableHlo.after hostOps2_2 (StableHlo.after hostOps2_1 (StableHlo.after hostOps2 (W8 m ρ c)))) (Proc.devRef .tc main_v38) = _
  after_results_simp
  simp only [StableHlo.TRef.toBuf, StableHlo.TRef.ofBuf, cast_eq]
  rfl

set_option maxRecDepth 200000 in
theorem f1_ref : Host.gather gather_S50000x128_S200000x1_S200000x128_1_0_n_n_0_1_1128 (val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (wrapCol200k (labRow0 (m ((c : Thread nD τ).loc main_arg2))))
    = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl

set_option maxRecDepth 200000 in
theorem f2_ref : Host.gather gather_S50000x128_S200000x1_S200000x128_1_0_n_n_0_1_1128 (val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (wrapCol200k (labRow1 (m ((c : Thread nD τ).loc main_arg2))))
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl

/-- The features at the pairs' first ends are the reference's. -/
theorem k12_f1 (h : InRange m c) :
    W12 (F := Ideal) m ρ c (Proc.devRef .tc main_v35) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [f1_raw, k8_h m ρ c h, k8_arg2, fill200_eq0 m c _ h]; exact f1_ref m c

/-- The features at the pairs' second ends are the reference's. -/
theorem k12_f2 (h : InRange m c) :
    W12 (F := Ideal) m ρ c (Proc.devRef .tc main_v38) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [f2_raw, k8_h m ρ c h, k8_arg2, fill200_eq1 m c _ h]; exact f2_ref m c

end Cert.KernelIdeal.KChain

end
-- ==== Proof.DotFinal.lean ====
/-
  What the edge-scoring region leaves in its output array.

  The region walks the 200000 rows of two arrays of 128-entry rows in 25 blocks of 8000 rows. At each block it multiplies
  the two blocks entry by entry, adds each row's 128 products, and writes the 8000 sums back as a one-column block of
  the output. Row `r` of the arrays lies in block `r / 8000`, at row `r % 8000` of it, so after the 25 write-backs
  the output array holds, at every row, the inner product of the two arrays' rows there.
-/
import proofs.«409206_j74612171866597_1_alg».proof.Proof.Gen.KernelIdeal.Frame
import proofs.«409206_j74612171866597_1_alg».proof.Proof.SpecMath
import Idealize.ShloMosaic.Lib.Pipeline.Value
import Idealize.ShloMosaic.PureOps.Ideal.Laws
import Idealize.ShloMosaic.Lib.ValueIdx

noncomputable section

open scoped BigOperators
open Idealize.ShloMosaic Idealize.ShloMosaic.TcCoe Idealize.ShloMosaic.ValueIdx Idealize.SL.Sem
open Idealize.ShloMosaic.Pipeline (Dat)

namespace Cert.KernelIdeal.DotFinal

open Cert.KernelIdeal Cert.KernelIdeal.Gen

/-! ## One block: the stored column at a row is that row's inner product -/

/-- Over row `p` of the reduced vector, the index of the block with lane `j` put back is `(p, j)`. -/
theorem lift_lane (p : Fin 8000) (j : Fin 128) :
    reduces_S8000x128_S8000.lift (ix1 p) j = ix2 p j := by
  funext a; apply Fin.ext
  match a with
  | ⟨0, _⟩ => rfl
  | ⟨1, _⟩ => rfl

/-- The value the body stores, read at row `p` of its one column: the sum over the 128 lanes of the products of the
    two blocks' entries in that row. The column cast reads the vector of row sums at `p` (same row-major position);
    the row sum from the zero accumulator is the plain sum over the lanes; the casts to the same shape are identities. -/
theorem pay_apply (x0 x1 : Vec Ideal S8000x128 .f32) (p : Fin 8000) :
    k2_pay1 x0 x1 (ix2 p (0 : Fin 1)) = ∑ j : Fin 128, x0 (ix2 p j) * x1 (ix2 p j) := by
  unfold k2_pay1
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ _ _ _ _ (ix1 p)).trans ?_
  refine Finset.sum_congr rfl fun j _ => ?_
  have e := lift_lane p j
  rw [shapeCast_self, shapeCast_self]
  exact congrArg₂ (· * ·) (congrArg x0 e) (congrArg x1 e)

/-- So when row `p` of the two blocks is row `r` of two arrays, the stored column at `p` is the arrays' row-by-row
    inner product at `r`. -/
theorem pay_row (x0 x1 : Vec Ideal S8000x128 .f32) (A B : Cert.Sage.Mat 200000 128) (p : Fin 8000) (r : Fin 200000)
    (h0 : ∀ j : Fin 128, x0 (ix2 p j) = A (ix2 r j)) (h1 : ∀ j : Fin 128, x1 (ix2 p j) = B (ix2 r j)) :
    k2_pay1 x0 x1 (ix2 p (0 : Fin 1)) = Cert.Sage.rowDot A B (ix2 r (0 : Fin 1)) := by
  rw [pay_apply]
  show _ = ∑ j : Fin 128, A (ix2 r j) * B (ix2 r j)
  exact Finset.sum_congr rfl fun j _ => by rw [h0, h1]

/-! ## The blocks' places in the arrays -/

theorem zero_offsets : (![0, 0] : Fin 2 → Nat) = fun _ => 0 := funext fun a => by fin_cases a <;> rfl

/-- The three index maps, decided over the 25 grid points: every window's block at point `t` is row block `t`, column
    block `0`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the row-by-row inner product of the two arrays as the region finds them. -/
theorem flushed_eq (c : Dev nD) (t : Fin cfg2.N) :
    (dat2 (F := Ideal) V c).flushed 2 t = ((cfg2.win 2).blk t).view.read (Elt Ideal)
      (Cert.Sage.rowDot (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S8000x128) zero_offsets]
  obtain ⟨e0, e1, e2, e3, e4, e5⟩ := idx_facts t
  funext y
  obtain ⟨p, q, rfl⟩ : ∃ (p : Fin 8000) (q : Fin 1), y = ix2 p q := ⟨y 0, y 1, eq_ix2 y⟩
  obtain rfl : q = 0 := Subsingleton.elim _ _
  -- the array index under the block's row p, split into its row and its one column
  obtain ⟨r, s, hrs⟩ : ∃ (r : Fin 200000) (s : Fin 1), ((cfg2.win 2).blk t).view.emb (ix2 p (0 : Fin 1)) = ix2 r s :=
    ⟨_, _, eq_ix2 _⟩
  obtain rfl : s = 0 := Subsingleton.elim _ _
  have hr : r.val = t.val * 8000 + p.val := by
    have h := congrArg (fun i : S200000x1.Idx => (i 0).val) hrs
    have h' : win2_2.index t (0 : Fin 2) * 8000 + 1 * p.val = r.val := h
    omega
  show k2_pay1 (iblk2 V c 0 t) (iblk2 V c 1 t) (ix2 p (0 : Fin 1))
    = Cert.Sage.rowDot (V c (Pipeline.arrRef spec2 0)) (V c (Pipeline.arrRef spec2 1)) (((cfg2.win 2).blk t).view.emb (ix2 p (0 : Fin 1)))
  rw [hrs]
  refine pay_row _ _ _ _ p r (fun j => ?_) (fun j => ?_)
  · show V c (Pipeline.arrRef spec2 0) (((cfg2.win 0).blk t).view.emb (ix2 p j)) = V c (Pipeline.arrRef spec2 0) (ix2 r j)
    refine congrArg _ (funext fun a => Fin.ext ?_)
    match a with
    | ⟨0, _⟩ => show win2_0.index t (0 : Fin 2) * 8000 + 1 * p.val = r.val; omega
    | ⟨1, _⟩ => show win2_0.index t (1 : Fin 2) * 128 + 1 * j.val = j.val; omega
  · show V c (Pipeline.arrRef spec2 1) (((cfg2.win 1).blk t).view.emb (ix2 p j)) = V c (Pipeline.arrRef spec2 1) (ix2 r j)
    refine congrArg _ (funext fun a => Fin.ext ?_)
    match a with
    | ⟨0, _⟩ => show win2_1.index t (0 : Fin 2) * 8000 + 1 * p.val = r.val; omega
    | ⟨1, _⟩ => show win2_1.index t (1 : Fin 2) * 128 + 1 * j.val = j.val; omega

/-! ## The blocks cover the array -/

/-- An index of the output array is in point `t`'s block iff each coordinate is in the block's range on its axis. -/
theorem mem_blk (t : Fin cfg2.N) (i : S200000x1.Idx) :
    i ∈ ((cfg2.win 2).blk t).view.set ↔ ∀ a : Fin 2, win2_2.index t a * S8000x1.size a ≤ (i a).val
      ∧ (i a).val < win2_2.index t a * S8000x1.size a + S8000x1.size a := by
  show i ∈ ((View.whole main_v39).slice (win2_2.rect t)).set ↔ _
  rw [View.set_slice_whole, Rect.mem_set_unit]
  exact Iff.rfl

/-- Row `r` of the output array is in the block of point `r / 8000`, which is written back. -/
theorem cover (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 25 := N_2
  let t : Fin cfg2.N := ⟨(i 0).val / 8000, by rw [hN]; omega⟩
  have ht : t.val = (i 0).val / 8000 := rfl
  obtain ⟨-, -, -, -, e4, e5⟩ := idx_facts t
  refine ⟨t, flush2_2 t, ?_⟩
  rw [mem_blk]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 1 ≤ (i 1).val ∧ (i 1).val < win2_2.index t (1 : Fin 2) * 1 + 1
    omega

/-! ## The array after the region -/

/-- THE OUTPUT ARRAY after the 25 points: at every row, the inner product of the two arrays' rows there. -/
theorem final2 (c : Dev nD) : (dat2 (F := Ideal) V c).arrAt 2 cfg2.N
    = Cert.Sage.rowDot (V c (Pipeline.arrRef spec2 0)) (V c (Pipeline.arrRef spec2 1)) :=
  (dat2 (F := Ideal) V c).arrAt_eq_of_cover 2 _ (fun t _ => flushed_eq V c t) cover

end Cert.KernelIdeal.DotFinal

end
-- ==== Proof.KChain3.lean ====
/-
  The scoring region and the result.

  The third region leaves, row by row, the inner product of the two gathered feature arrays, as a one-column array; the
  program's result is that column flattened. The reference multiplies the same two arrays entry by entry and sums each
  row: the same sum of 128 products.
-/
import proofs.«409206_j74612171866597_1_alg».proof.Proof.Gen.KernelIdeal.Frame
import proofs.«409206_j74612171866597_1_alg».proof.Proof.Gen.ReferenceIdeal.Read
import proofs.«409206_j74612171866597_1_alg».proof.Proof.Fill
import proofs.«409206_j74612171866597_1_alg».proof.Proof.Decode
import proofs.«409206_j74612171866597_1_alg».proof.Defs
import proofs.«409206_j74612171866597_1_alg».proof.Proof.KChain2
import proofs.«409206_j74612171866597_1_alg».proof.Proof.DotFinal
import Idealize.ShloMosaic.Lib.StableHlo.Run
import Idealize.ShloMosaic.PureOps.Ideal

set_option maxRecDepth 16384
set_option maxHeartbeats 4000000

noncomputable section

namespace Cert.KernelIdeal.KChain

open Cert.KernelIdeal Cert.KernelIdeal.Gen Cert.KernelIdeal.Fill
open Cert.ReferenceIdeal.Read
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ) (ρ : Dev nD → PrngReg) (c : Dev nD)

/-- A one-column array flattened, read at an entry. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

set_option maxRecDepth 200000 in
/-- The scoring region's output array holds the row-by-row inner products of the reference's two gathered arrays. -/
theorem k13 (h : InRange m c) :
    W13 (F := Ideal) m ρ c (Proc.devRef .tc main_v39)
      = Cert.Sage.rowDot (val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have e0 : V12 (F := Ideal) m ρ c (Pipeline.arrRef spec2 0) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := k12_f1 m ρ c h
  have e1 : V12 (F := Ideal) m ρ c (Pipeline.arrRef spec2 1) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := k12_f2 m ρ c h
  have f := Cert.KernelIdeal.DotFinal.final2 (V12 (F := Ideal) m ρ) c
  rw [e0, e1] at f
  exact (W13_arr (F := Ideal) m ρ c 2).trans f

set_option maxRecDepth 200000 in
/-- The result is the scoring region's column, flattened. -/
theorem out_raw :
    W14 (F := Ideal) m ρ c (Proc.devRef .tc main_v40)
      = shapeCast S200000 (W13 (F := Ideal) m ρ c (Proc.devRef .tc main_v39)) Gen.shapeCasts_S200000x1_S200000 := by
  show StableHlo.after hostOps3 (W13 m ρ c) (Proc.devRef .tc main_v40) = _
  after_results_simp
  rfl

set_option maxRecDepth 200000 in
/-- THE RESULT: what the program leaves in its result array is the reference's result, as a function of the launch
    arguments. -/
theorem k14 (h : InRange m c) :
    W14 (F := Ideal) m ρ c (Proc.devRef .tc main_v40) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [out_raw, k13 m ρ c h]
  funext i
  obtain ⟨p, rfl⟩ : ∃ p : Fin 200000, i = ix1 p := ⟨i 0, eq_ix1 i⟩
  rw [Cert.ReferenceIdeal.RefPoint.score]
  exact shapeCast_a1_a_apply _ _ p

end Cert.KernelIdeal.KChain

end
-- ==== Proof.lean ====
/-
  The certificate of a two-layer graph convolution with an edge scorer against its plain reference.

  Both programs look up an embedding row per node id, then twice replace every node's features by an affine combination
  of the mean of its in-neighbours' features and its own features (the first time clamped below at zero), and finally
  score each listed pair of nodes by the inner product of the two nodes' features. The kernel program computes the two
  affine combinations and the inner products in three tiled regions, with the weights transposed and narrowed beforehand;
  on extended reals a narrowing is the identity, a tiled matrix product into a zero accumulator is the plain sum over the
  contracted axis, and a lane sum is the plain sum, so each region's output array is the reference's array entry by entry
  (no law beyond reading both sides as the same sums is used, so finiteness of the inputs plays no part). The one
  difference between the programs is in the gathers: the kernel program's gather replaces a row whose index is out of
  range by a filling value, the reference's clamps the index. The precondition's three index tests say that no index is
  out of range, and then both are the same plain gather.

  The frames of the two kernel programs are the generated ones; the reference's frame and value are its generated run.
-/
import proofs.«409206_j74612171866597_1_alg».proof.Defs
import proofs.«409206_j74612171866597_1_alg».proof.Proof.Gen.Kernel
import proofs.«409206_j74612171866597_1_alg».proof.Proof.Gen.Kernel.Skeleton
import proofs.«409206_j74612171866597_1_alg».proof.Proof.Gen.Kernel.Launch
import proofs.«409206_j74612171866597_1_alg».proof.Proof.Gen.Kernel.Points
import proofs.«409206_j74612171866597_1_alg».proof.Proof.Gen.Kernel.Frame
import proofs.«409206_j74612171866597_1_alg».proof.Proof.Gen.KernelIdeal
import proofs.«409206_j74612171866597_1_alg».proof.Proof.Gen.KernelIdeal.Skeleton
import proofs.«409206_j74612171866597_1_alg».proof.Proof.Gen.KernelIdeal.Launch
import proofs.«409206_j74612171866597_1_alg».proof.Proof.Gen.KernelIdeal.Points
import proofs.«409206_j74612171866597_1_alg».proof.Proof.Gen.KernelIdeal.Frame
import proofs.«409206_j74612171866597_1_alg».proof.Proof.Gen.ReferenceIdeal
import proofs.«409206_j74612171866597_1_alg».proof.Proof.Gen.Pre_finite_inputs
import proofs.«409206_j74612171866597_1_alg».proof.Proof.Gen.ReferenceIdeal.Run
import proofs.«409206_j74612171866597_1_alg».proof.Proof.Gen.ReferenceIdeal.Read
import proofs.«409206_j74612171866597_1_alg».proof.Proof.KRun
import proofs.«409206_j74612171866597_1_alg».proof.Proof.KChain3
import Idealize.ShloMosaic.Adequacy
import Idealize.ShloMosaic.Init

set_option maxRecDepth 200000

noncomputable section

namespace Cert.Proof

open Idealize.ShloMosaic Idealize.ShloMosaic.TcCoe Idealize.SL.Sem

/-- The word-level kernel program runs and leaves its arguments unchanged: the generated frame. -/
theorem frame_k : Cert.frame_Kernel := fun m ρ _ => Cert.Kernel.Gen.frame m ρ

/-- The idealized kernel program runs and leaves its arguments unchanged: the generated frame. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result function of the arguments in their result arrays: the kernel program
    by its run read boundary by boundary under the decoded index ranges, the reference by its generated run; the
    arguments agree, so the two functions are applied to the same arrays. -/
theorem algebraic : Cert.algebraic_KernelIdeal_ReferenceIdeal := by
  intro m ρ m' ρ' hpre hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KChain.k14 m ρ c (Cert.KernelIdeal.KChain.inRange_of_pre m c hpre)), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v83_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
